-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512000x128 : Shape := ⟨2, ![512000, 128]⟩
abbrev S1024000 : Shape := ⟨1, ![1024000]⟩
abbrev S204800 : Shape := ⟨1, ![204800]⟩
abbrev S40960 : Shape := ⟨1, ![40960]⟩
abbrev S128x128 : Shape := ⟨2, ![128, 128]⟩
abbrev S128 : Shape := ⟨1, ![128]⟩
abbrev S256x47 : Shape := ⟨2, ![256, 47]⟩
abbrev S47 : Shape := ⟨1, ![47]⟩
abbrev S_ : Shape := ⟨0, ![]⟩

class Facts : Prop where
  bcast_S_S512000x128 : S_.BroadcastsInDim S512000x128 (![] : Fin 0 → Fin S512000x128.rank)
  reducesTo_S512000x128_S_d0_1 : S512000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg10 : FVec F S128 .f32) (main_arg11 : FVec F S256x47 .f32) (main_arg12 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x47 .f32 := Host.absf main_arg11
  let main_cst_8 : FVec F S_ .f32 := constant S_ .f32 0x7F800000#32
  let main_v25 : FVec F S256x47 .f32 := broadcastInDim S256x47 ![] bcast_S_S256x47 main_cst_8
  let main_v26 : IVec S256x47 1 := cmpf .olt main_v24 main_v25
  let main_c_9 : IVec S_ 1 := constantI S_ 1 1#1
  let main_v27 : IVec S_ 1 := (fun x v => Host.reduce IntOp.andi x v reducesTo_S256x47_S_d0_1 h_S_) main_v26 main_c_9
  let main_v28 : IVec S_ 1 := andi main_v23 main_v27
  let main_v29 : FVec F S47 .f32 := Host.absf main_arg12
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S512000x128 .f32) (main_arg1 : IVec S1024000 32) (main_arg2 : IVec S1024000 32) (main_arg3 : IVec S204800 32) (main_arg4 : IVec S204800 32) (main_arg5 : IVec S40960 32) (main_arg6 : IVec S40960 32) (main_arg7 : FVec F S128x128 .f32) (main_arg8 : FVec F S128 .f32) (main_arg9 : FVec F S128x128 .f32) (main_arg10 : FVec F S128 .f32) (main_arg11 : FVec F S256x47 .f32) (main_arg12 : FVec F S47 .f32) : IVec S_ 1 :=
  let main_v0 : FVec F S512000x128 .f32 := Host.absf main_arg0
  let main_cst : FVec F S_ .f32 := constant S_ .f32 0x7F800000#32
  let main_v1 : FVec F S512000x128 .f32 := broadcastInDim S512000x128 ![] bcast_S_S512000x128 main_cst
  let main_v2 : IVec S512000x128 1 := cmpf .olt main_v0 main_v1
  let main_c : IVec S_ 1 := constantI S_ 1 1#1
  let main_v3 : IVec S_ 1 := (fun x v => Host.reduce IntOp.andi x v reducesTo_S512000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_v13 main_v16
-- ==== Kernel.lean ====
abbrev S512000x128 : Shape := ⟨2, ![512000, 128]⟩
abbrev S1024000 : Shape := ⟨1, ![1024000]⟩
abbrev S204800 : Shape := ⟨1, ![204800]⟩
abbrev S40960 : Shape := ⟨1, ![40960]⟩
abbrev S128x128 : Shape := ⟨2, ![128, 128]⟩
abbrev S128 : Shape := ⟨1, ![128]⟩
abbrev S256x47 : Shape := ⟨2, ![256, 47]⟩
abbrev S47 : Shape := ⟨1, ![47]⟩
abbrev S_ : Shape := ⟨0, ![]⟩
abbrev S1024000x1 : Shape := ⟨2, ![1024000, 1]⟩
abbrev S1024000x128 : Shape := ⟨2, ![1024000, 128]⟩
abbrev S102400x128 : Shape := ⟨2, ![102400, 128]⟩
abbrev S102400 : Shape := ⟨1, ![102400]⟩
abbrev S102400x1 : Shape := ⟨2, ![102400, 1]⟩
abbrev S6400x128 : Shape := ⟨2, ![6400, 128]⟩
abbrev S1x128 : Shape := ⟨2, ![1, 128]⟩
abbrev S204800x1 : Shape := ⟨2, ![204800, 1]⟩
abbrev S204800x128 : Shape := ⟨2, ![204800, 128]⟩
abbrev S20480x128 : Shape := ⟨2, ![20480, 128]⟩
abbrev S20480 : Shape := ⟨1, ![20480]⟩
abbrev S20480x1 : Shape := ⟨2, ![20480, 1]⟩
abbrev S20480x256 : Shape := ⟨2, ![20480, 256]⟩
abbrev S2560x128 : Shape := ⟨2, ![2560, 128]⟩
abbrev S2560x256 : Shape := ⟨2, ![2560, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S4096x47 : Shape := ⟨2, ![4096, 47]⟩
abbrev S1024x256 : Shape := ⟨2, ![1024, 256]⟩
abbrev S1024x47 : Shape := ⟨2, ![1024, 47]⟩
abbrev S1x47 : Shape := ⟨2, ![1, 47]⟩

abbrev nBuf : Space → Nat
  | .hbm => 91
  | .vmem => 18
  | .smem => 0
  | _ => 0

abbrev bufTy : (tb : Table) → Fin (tcTables nBuf tb) → BufTy
  | .hbm, ⟨0, _⟩ => ⟨S512000x128, .f32⟩
  | .hbm, ⟨1, _⟩ => ⟨S1024000, .i32⟩
  | .hbm, ⟨2, _⟩ => ⟨S1024000, .i32⟩
  | .hbm, ⟨3, _⟩ => ⟨S204800, .i32⟩
  | .hbm, ⟨4, _⟩ => ⟨S204800, .i32⟩
  | .hbm, ⟨5, _⟩ => ⟨S40960, .i32⟩
  | .hbm, ⟨6, _⟩ => ⟨S40960, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x47, .f32⟩
  | .hbm, ⟨12, _⟩ => ⟨S47, .f32⟩
  | .hbm, ⟨13, _⟩ => ⟨S_, .i32⟩
  | .hbm, ⟨14, _⟩ => ⟨S1024000, .i32⟩
  | .hbm, ⟨15, _⟩ => ⟨S1024000, .i1⟩
  | .hbm, ⟨16, _⟩ => ⟨S_, .i32⟩
  | .hbm, ⟨17, _⟩ => ⟨S1024000, .i32⟩
  | .hbm, ⟨18, _⟩ => ⟨S1024000, .i32⟩
  | .hbm, ⟨19, _⟩ => ⟨S1024000, .i32⟩
  | .hbm, ⟨20, _⟩ => ⟨S1024000x1, .i32⟩
  | .hbm, ⟨21, _⟩ => ⟨S1024000x128, .f32⟩
  | .hbm, ⟨22, _⟩ => ⟨S_, .f32⟩
  | .hbm, ⟨23, _⟩ => ⟨S102400x128, .f32⟩
  | .hbm, ⟨24, _⟩ => ⟨S1024000x1, .i32⟩
  | .hbm, ⟨25, _⟩ => ⟨S102400x128, .f32⟩
  | .hbm, ⟨26, _⟩ => ⟨S_, .f32⟩
  | .hbm, ⟨27, _⟩ => ⟨S1024000, .f32⟩
  | .hbm, ⟨28, _⟩ => ⟨S_, .f32⟩
  | .hbm, ⟨29, _⟩ => ⟨S102400, .f32⟩
  | .hbm, ⟨30, _⟩ => ⟨S1024000x1, .i32⟩
  | .hbm, ⟨31, _⟩ => ⟨S102400, .f32⟩
  | .hbm, ⟨32, _⟩ => ⟨S_, .f32⟩
  | .hbm, ⟨33, _⟩ => ⟨S102400, .f32⟩
  | .hbm, ⟨34, _⟩ => ⟨S102400, .f32⟩
  | .hbm, ⟨35, _⟩ => ⟨S102400x1, .f32⟩
  | .hbm, ⟨36, _⟩ => ⟨S102400x128, .f32⟩
  | .hbm, ⟨37, _⟩ => ⟨S102400x128, .f32⟩
  | .hbm, ⟨38, _⟩ => ⟨S102400x128, .f32⟩
  | .hbm, ⟨39, _⟩ => ⟨S_, .i32⟩
  | .hbm, ⟨40, _⟩ => ⟨S204800, .i32⟩
  | .hbm, ⟨41, _⟩ => ⟨S204800, .i1⟩
  | .hbm, ⟨42, _⟩ => ⟨S_, .i32⟩
  | .hbm, ⟨43, _⟩ => ⟨S204800, .i32⟩
  | .hbm, ⟨44, _⟩ => ⟨S204800, .i32⟩
  | .hbm, ⟨45, _⟩ => ⟨S204800, .i32⟩
  | .hbm, ⟨46, _⟩ => ⟨S204800x1, .i32⟩
  | .hbm, ⟨47, _⟩ => ⟨S204800x128, .f32⟩
  | .hbm, ⟨48, _⟩ => ⟨S_, .f32⟩
  | .hbm, ⟨49, _⟩ => ⟨S20480x128, .f32⟩
  | .hbm, ⟨50, _⟩ => ⟨S204800x1, .i32⟩
  | .hbm, ⟨51, _⟩ => ⟨S20480x128, .f32⟩
  | .hbm, ⟨52, _⟩ => ⟨S_, .f32⟩
  | .hbm, ⟨53, _⟩ => ⟨S204800, .f32⟩
  | .hbm, ⟨54, _⟩ => ⟨S_, .f32⟩
  | .hbm, ⟨55, _⟩ => ⟨S20480, .f32⟩
  | .hbm, ⟨56, _⟩ => ⟨S204800x1, .i32⟩
  | .hbm, ⟨57, _⟩ => ⟨S20480, .f32⟩
  | .hbm, ⟨58, _⟩ => ⟨S_, .f32⟩
  | .hbm, ⟨59, _⟩ => ⟨S20480, .f32⟩
  | .hbm, ⟨60, _⟩ => ⟨S20480, .f32⟩
  | .hbm, ⟨61, _⟩ => ⟨S20480x1, .f32⟩
  | .hbm, ⟨62, _⟩ => ⟨S20480x128, .f32⟩
  | .hbm, ⟨63, _⟩ => ⟨S20480x128, .f32⟩
  | .hbm, ⟨64, _⟩ => ⟨S20480x256, .f32⟩
  | .hbm, ⟨65, _⟩ => ⟨S_, .i32⟩
  | .hbm, ⟨66, _⟩ => ⟨S40960, .i32⟩
  | .hbm, ⟨67, _⟩ => ⟨S40960, .i1⟩
  | .hbm, ⟨68, _⟩ => ⟨S_, .i32⟩
  | .hbm, ⟨69, _⟩ => ⟨S40960, .i32⟩
  | .hbm, ⟨70, _⟩ => ⟨S40960, .i32⟩
  | .hbm, ⟨71, _⟩ => ⟨S40960, .i32⟩
  | .hbm, ⟨72, _⟩ => ⟨S40960x1, .i32⟩
  | .hbm, ⟨73, _⟩ => ⟨S40960x256, .f32⟩
  | .hbm, ⟨74, _⟩ => ⟨S_, .f32⟩
  | .hbm, ⟨75, _⟩ => ⟨S4096x256, .f32⟩
  | .hbm, ⟨76, _⟩ => ⟨S40960x1, .i32⟩
  | .hbm, ⟨77, _⟩ => ⟨S4096x256, .f32⟩
  | .hbm, ⟨78, _⟩ => ⟨S_, .f32⟩
  | .hbm, ⟨79, _⟩ => ⟨S40960, .f32⟩
  | .hbm, ⟨80, _⟩ => ⟨S_, .f32⟩
  | .hbm, ⟨81, _⟩ => ⟨S4096, .f32⟩
  | .hbm, ⟨82, _⟩ => ⟨S40960x1, .i32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096x1, .f32⟩
  | .hbm, ⟨88, _⟩ => ⟨S4096x256, .f32⟩
  | .hbm, ⟨89, _⟩ => ⟨S4096x256, .f32⟩
  | .hbm, ⟨90, _⟩ => ⟨S4096x47, .f32⟩
  | .local _ .vmem, ⟨0, _⟩ => ⟨S6400x128, .f32⟩
  | .local _ .vmem, ⟨1, _⟩ => ⟨S6400x128, .f32⟩
  | .local _ .vmem, ⟨2, _⟩ => ⟨S128x128, .f32⟩
  | .local _ .vmem, ⟨3, _⟩ => ⟨S128, .f32⟩
  | .local _ .vmem, ⟨4, _⟩ => ⟨S6400x128, .f32⟩
  | .local _ .vmem, ⟨5, _⟩ => ⟨S6400x128, .f32⟩
  | .local _ .vmem, ⟨6, _⟩ => ⟨S2560x128, .f32⟩
  | .local _ .vmem, ⟨7, _⟩ => ⟨S2560x128, .f32⟩
  | .local _ .vmem, ⟨8, _⟩ => ⟨S128x128, .f32⟩
  | .local _ .vmem, ⟨9, _⟩ => ⟨S128, .f32⟩
  | .local _ .vmem, ⟨10, _⟩ => ⟨S2560x256, .f32⟩
  | .local _ .vmem, ⟨11, _⟩ => ⟨S2560x256, .f32⟩
  | .local _ .vmem, ⟨12, _⟩ => ⟨S1024x256, .f32⟩
  | .local _ .vmem, ⟨13, _⟩ => ⟨S1024x256, .f32⟩
  | .local _ .vmem, ⟨14, _⟩ => ⟨S256x47, .f32⟩
  | .local _ .vmem, ⟨15, _⟩ => ⟨S47, .f32⟩
  | .local _ .vmem, ⟨16, _⟩ => ⟨S1024x47, .f32⟩
  | .local _ .vmem, ⟨17, _⟩ => ⟨S1024x47, .f32⟩
  | _, _ => ⟨S512000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_15 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2560x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x47 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x128_0_1 : S102400x1.BroadcastsInDim S102400x128 (![0, 1] : Fin 2 → Fin S102400x128.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  bcast_S_S204800 : S_.BroadcastsInDim S204800 (![] : Fin 0 → Fin S204800.rank)
  bcast_S204800_S204800x1_0 : S204800.BroadcastsInDim S204800x1 (![0] : Fin 1 → Fin S204800x1.rank)
  bcast_S_S20480x128 : S_.BroadcastsInDim S20480x128 (![] : Fin 0 → Fin S20480x128.rank)
  bcast_S_S20480 : S_.BroadcastsInDim S20480 (![] : Fin 0 → Fin S20480.rank)
  bcast_S20480_S20480x1_0 : S20480.BroadcastsInDim S20480x1 (![0] : Fin 1 → Fin S20480x1.rank)
  bcast_S20480x1_S20480x128_0_1 : S20480x1.BroadcastsInDim S20480x128 (![0, 1] : Fin 2 → Fin S20480x128.rank)
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  broadcasts_S1x128_S2560x128 : S1x128.Broadcasts S2560x128
  concatenates_S2560x128_S2560x128_S2560x256_d1 : Shape.Concatenates [S2560x128, S2560x128] S2560x256 1
  inb_S2560x256_S2560x256_0_0 : ∀ a, (![0, 0] : Fin 2 → Nat) a + S2560x256.size a ≤ S2560x256.size a
  h_S2560x256 : 0 < S2560x256.numel
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S1024x47 : S1x47.Broadcasts S1024x47
  inb_S1024x47_S1024x47_0_0 : ∀ a, (![0, 0] : Fin 2 → Nat) a + S1024x47.size a ≤ S1024x47.size a
  h_S1024x47 : 0 < S1024x47.numel
  gather_S512000x128_S1024000x1_S1024000x128_1_0_n_n_0_1_1128_wf : GatherDims.WF S512000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S6400x128_S128x128_S6400x128_1_0_0_1_n_n_wf : DotDims.WF S6400x128 S128x128 S6400x128 [1] [0] [0] [1] [] []
  gather_S102400x128_S204800x1_S204800x128_1_0_n_n_0_1_1128_wf : GatherDims.WF S102400x128 S204800x1 S204800x128 [1] [0] [] [0] [] 1 ![1, 128]
  scatter_S20480x128_S204800x1_S204800x128_1_0_0_1_wf : ScatterDims.WF S20480x128 S204800x1 S204800x128 [1] [0] [0] 1
  scatter_S20480_S204800x1_S204800_n_0_0_1_wf : ScatterDims.WF S20480 S204800x1 S204800 [] [0] [0] 1
  dot_S2560x128_S128x128_S2560x128_1_0_0_1_n_n_wf : DotDims.WF S2560x128 S128x128 S2560x128 [1] [0] [0] [1] [] []
  gather_S20480x256_S40960x1_S40960x256_1_0_n_n_0_1_1256_wf : GatherDims.WF S20480x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S102400x128.size a
  hwx0_0 : ∀ i : grid0.Coords, EltTy.bits .f32 = 32 ∨ (Rect.block (s := S102400x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S102400x128.size a
  hwx0_3 : ∀ i : grid0.Coords, EltTy.bits .f32 = 32 ∨ (Rect.block (s := S102400x128) S6400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x128.size a ≤ S20480x128.size a
  hwx1_0 : ∀ i : grid1.Coords, EltTy.bits .f32 = 32 ∨ (Rect.block (s := S20480x128) S2560x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x256.size a ≤ S20480x256.size a
  hwx1_3 : ∀ i : grid1.Coords, EltTy.bits .f32 = 32 ∨ (Rect.block (s := S20480x256) S2560x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x47.size a ≤ S256x47.size a
  hwx2_1 : ∀ i : grid2.Coords, EltTy.bits .f32 = 32 ∨ (Rect.block (s := S256x47) S256x47.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S47.size a ≤ S47.size a
  hwx2_2 : ∀ i : grid2.Coords, EltTy.bits .f32 = 32 ∨ (Rect.block (s := S47) S47.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x47.size a ≤ S4096x47.size a
  hwx2_3 : ∀ i : grid2.Coords, EltTy.bits .f32 = 32 ∨ (Rect.block (s := S4096x47) S1024x47.size (cc2_transform_3 i) (hinb2_3 i)).WholeWords (EltTy.packing .f32)

variable [Facts₀]

def gather_S512000x128_S1024000x1_S1024000x128_1_0_n_n_0_1_1128 : GatherDims S512000x128 S1024000x1 S1024000x128 where
  offsetDims := [1]
  collapsedSliceDims := [0]
  operandBatchingDims := []
  startIndicesBatchingDims := []
  startIndexMap := [0]
  indexVectorDim := 1
  sliceSizes := ![1, 128]
  wf := gather_S512000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def gather_S102400x128_S204800x1_S204800x128_1_0_n_n_0_1_1128 : GatherDims S102400x128 S204800x1 S204800x128 where
  offsetDims := [1]
  collapsedSliceDims := [0]
  operandBatchingDims := []
  startIndicesBatchingDims := []
  startIndexMap := [0]
  indexVectorDim := 1
  sliceSizes := ![1, 128]
  wf := gather_S102400x128_S204800x1_S204800x128_1_0_n_n_0_1_1128_wf
def scatter_S20480x128_S204800x1_S204800x128_1_0_0_1 : ScatterDims S20480x128 S204800x1 S204800x128 where
  updateWindowDims := [1]
  insertedWindowDims := [0]
  scatterDimsToOperandDims := [0]
  indexVectorDim := 1
  wf := scatter_S20480x128_S204800x1_S204800x128_1_0_0_1_wf
def scatter_S20480_S204800x1_S204800_n_0_0_1 : ScatterDims S20480 S204800x1 S204800 where
  updateWindowDims := []
  insertedWindowDims := [0]
  scatterDimsToOperandDims := [0]
  indexVectorDim := 1
  wf := scatter_S20480_S204800x1_S204800_n_0_0_1_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def gather_S20480x256_S40960x1_S40960x256_1_0_n_n_0_1_1256 : GatherDims S20480x256 S40960x1 S40960x256 where
  offsetDims := [1]
  collapsedSliceDims := [0]
  operandBatchingDims := []
  startIndicesBatchingDims := []
  startIndexMap := [0]
  indexVectorDim := 1
  sliceSizes := ![1, 256]
  wf := gather_S20480x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v18) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S6400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S2560x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2560x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S256x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1024x47.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S512000x128 : Shape := ⟨2, ![512000, 128]⟩
abbrev S1024000 : Shape := ⟨1, ![1024000]⟩
abbrev S204800 : Shape := ⟨1, ![204800]⟩
abbrev S40960 : Shape := ⟨1, ![40960]⟩
abbrev S128x128 : Shape := ⟨2, ![128, 128]⟩
abbrev S128 : Shape := ⟨1, ![128]⟩
abbrev S256x47 : Shape := ⟨2, ![256, 47]⟩
abbrev S47 : Shape := ⟨1, ![47]⟩
abbrev S_ : Shape := ⟨0, ![]⟩
abbrev S1024000x1 : Shape := ⟨2, ![1024000, 1]⟩
abbrev S1024000x128 : Shape := ⟨2, ![1024000, 128]⟩
abbrev S102400x128 : Shape := ⟨2, ![102400, 128]⟩
abbrev S102400 : Shape := ⟨1, ![102400]⟩
abbrev S102400x1 : Shape := ⟨2, ![102400, 1]⟩
abbrev S1x128 : Shape := ⟨2, ![1, 128]⟩
abbrev S204800x1 : Shape := ⟨2, ![204800, 1]⟩
abbrev S204800x128 : Shape := ⟨2, ![204800, 128]⟩
abbrev S20480x128 : Shape := ⟨2, ![20480, 128]⟩
abbrev S20480 : Shape := ⟨1, ![20480]⟩
abbrev S20480x1 : Shape := ⟨2, ![20480, 1]⟩
abbrev S20480x256 : Shape := ⟨2, ![20480, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S4096x47 : Shape := ⟨2, ![4096, 47]⟩
abbrev S1x47 : Shape := ⟨2, ![1, 47]⟩

abbrev nBuf : Space → Nat
  | .hbm => 107
  | .vmem => 0
  | .smem => 0
  | _ => 0

abbrev bufTy : (tb : Table) → Fin (tcTables nBuf tb) → BufTy
  | .hbm, ⟨0, _⟩ => ⟨S512000x128, .f32⟩
  | .hbm, ⟨1, _⟩ => ⟨S1024000, .i32⟩
  | .hbm, ⟨2, _⟩ => ⟨S1024000, .i32⟩
  | .hbm, ⟨3, _⟩ => ⟨S204800, .i32⟩
  | .hbm, ⟨4, _⟩ => ⟨S204800, .i32⟩
  | .hbm, ⟨5, _⟩ => ⟨S40960, .i32⟩
  | .hbm, ⟨6, _⟩ => ⟨S40960, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x47, .f32⟩
  | .hbm, ⟨12, _⟩ => ⟨S47, .f32⟩
  | .hbm, ⟨13, _⟩ => ⟨S_, .i32⟩
  | .hbm, ⟨14, _⟩ => ⟨S1024000, .i32⟩
  | .hbm, ⟨15, _⟩ => ⟨S1024000, .i1⟩
  | .hbm, ⟨16, _⟩ => ⟨S_, .i32⟩
  | .hbm, ⟨17, _⟩ => ⟨S1024000, .i32⟩
  | .hbm, ⟨18, _⟩ => ⟨S1024000, .i32⟩
  | .hbm, ⟨19, _⟩ => ⟨S1024000, .i32⟩
  | .hbm, ⟨20, _⟩ => ⟨S1024000x1, .i32⟩
  | .hbm, ⟨21, _⟩ => ⟨S1024000x128, .f32⟩
  | .hbm, ⟨22, _⟩ => ⟨S_, .f32⟩
  | .hbm, ⟨23, _⟩ => ⟨S102400x128, .f32⟩
  | .hbm, ⟨24, _⟩ => ⟨S1024000x1, .i32⟩
  | .hbm, ⟨25, _⟩ => ⟨S102400x128, .f32⟩
  | .hbm, ⟨26, _⟩ => ⟨S_, .f32⟩
  | .hbm, ⟨27, _⟩ => ⟨S1024000, .f32⟩
  | .hbm, ⟨28, _⟩ => ⟨S_, .f32⟩
  | .hbm, ⟨29, _⟩ => ⟨S102400, .f32⟩
  | .hbm, ⟨30, _⟩ => ⟨S1024000x1, .i32⟩
  | .hbm, ⟨31, _⟩ => ⟨S102400, .f32⟩
  | .hbm, ⟨32, _⟩ => ⟨S_, .f32⟩
  | .hbm, ⟨33, _⟩ => ⟨S102400, .f32⟩
  | .hbm, ⟨34, _⟩ => ⟨S102400, .f32⟩
  | .hbm, ⟨35, _⟩ => ⟨S102400x1, .f32⟩
  | .hbm, ⟨36, _⟩ => ⟨S102400x128, .f32⟩
  | .hbm, ⟨37, _⟩ => ⟨S102400x128, .f32⟩
  | .hbm, ⟨38, _⟩ => ⟨S102400x128, .f32⟩
  | .hbm, ⟨39, _⟩ => ⟨S1x128, .f32⟩
  | .hbm, ⟨40, _⟩ => ⟨S102400x128, .f32⟩
  | .hbm, ⟨41, _⟩ => ⟨S102400x128, .f32⟩
  | .hbm, ⟨42, _⟩ => ⟨S_, .f32⟩
  | .hbm, ⟨43, _⟩ => ⟨S102400x128, .f32⟩
  | .hbm, ⟨44, _⟩ => ⟨S102400x128, .f32⟩
  | .hbm, ⟨45, _⟩ => ⟨S_, .i32⟩
  | .hbm, ⟨46, _⟩ => ⟨S204800, .i32⟩
  | .hbm, ⟨47, _⟩ => ⟨S204800, .i1⟩
  | .hbm, ⟨48, _⟩ => ⟨S_, .i32⟩
  | .hbm, ⟨49, _⟩ => ⟨S204800, .i32⟩
  | .hbm, ⟨50, _⟩ => ⟨S204800, .i32⟩
  | .hbm, ⟨51, _⟩ => ⟨S204800, .i32⟩
  | .hbm, ⟨52, _⟩ => ⟨S204800x1, .i32⟩
  | .hbm, ⟨53, _⟩ => ⟨S204800x128, .f32⟩
  | .hbm, ⟨54, _⟩ => ⟨S_, .f32⟩
  | .hbm, ⟨55, _⟩ => ⟨S20480x128, .f32⟩
  | .hbm, ⟨56, _⟩ => ⟨S204800x1, .i32⟩
  | .hbm, ⟨57, _⟩ => ⟨S20480x128, .f32⟩
  | .hbm, ⟨58, _⟩ => ⟨S_, .f32⟩
  | .hbm, ⟨59, _⟩ => ⟨S204800, .f32⟩
  | .hbm, ⟨60, _⟩ => ⟨S_, .f32⟩
  | .hbm, ⟨61, _⟩ => ⟨S20480, .f32⟩
  | .hbm, ⟨62, _⟩ => ⟨S204800x1, .i32⟩
  | .hbm, ⟨63, _⟩ => ⟨S20480, .f32⟩
  | .hbm, ⟨64, _⟩ => ⟨S_, .f32⟩
  | .hbm, ⟨65, _⟩ => ⟨S20480, .f32⟩
  | .hbm, ⟨66, _⟩ => ⟨S20480, .f32⟩
  | .hbm, ⟨67, _⟩ => ⟨S20480x1, .f32⟩
  | .hbm, ⟨68, _⟩ => ⟨S20480x128, .f32⟩
  | .hbm, ⟨69, _⟩ => ⟨S20480x128, .f32⟩
  | .hbm, ⟨70, _⟩ => ⟨S20480x128, .f32⟩
  | .hbm, ⟨71, _⟩ => ⟨S1x128, .f32⟩
  | .hbm, ⟨72, _⟩ => ⟨S20480x128, .f32⟩
  | .hbm, ⟨73, _⟩ => ⟨S20480x128, .f32⟩
  | .hbm, ⟨74, _⟩ => ⟨S_, .f32⟩
  | .hbm, ⟨75, _⟩ => ⟨S20480x128, .f32⟩
  | .hbm, ⟨76, _⟩ => ⟨S20480x128, .f32⟩
  | .hbm, ⟨77, _⟩ => ⟨S20480x256, .f32⟩
  | .hbm, ⟨78, _⟩ => ⟨S_, .i32⟩
  | .hbm, ⟨79, _⟩ => ⟨S40960, .i32⟩
  | .hbm, ⟨80, _⟩ => ⟨S40960, .i1⟩
  | .hbm, ⟨81, _⟩ => ⟨S_, .i32⟩
  | .hbm, ⟨82, _⟩ => ⟨S40960, .i32⟩
  | .hbm, ⟨83, _⟩ => ⟨S40960, .i32⟩
  | .hbm, ⟨84, _⟩ => ⟨S40960, .i32⟩
  | .hbm, ⟨85, _⟩ => ⟨S40960x1, .i32⟩
  | .hbm, ⟨86, _⟩ => ⟨S40960x256, .f32⟩
  | .hbm, ⟨87, _⟩ => ⟨S_, .f32⟩
  | .hbm, ⟨88, _⟩ => ⟨S4096x256, .f32⟩
  | .hbm, ⟨89, _⟩ => ⟨S40960x1, .i32⟩
  | .hbm, ⟨90, _⟩ => ⟨S4096x256, .f32⟩
  | .hbm, ⟨91, _⟩ => ⟨S_, .f32⟩
  | .hbm, ⟨92, _⟩ => ⟨S40960, .f32⟩
  | .hbm, ⟨93, _⟩ => ⟨S_, .f32⟩
  | .hbm, ⟨94, _⟩ => ⟨S4096, .f32⟩
  | .hbm, ⟨95, _⟩ => ⟨S40960x1, .i32⟩
  | .hbm, ⟨96, _⟩ => ⟨S4096, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S4096x1, .f32⟩
  | .hbm, ⟨101, _⟩ => ⟨S4096x256, .f32⟩
  | .hbm, ⟨102, _⟩ => ⟨S4096x256, .f32⟩
  | .hbm, ⟨103, _⟩ => ⟨S4096x47, .f32⟩
  | .hbm, ⟨104, _⟩ => ⟨S1x47, .f32⟩
  | .hbm, ⟨105, _⟩ => ⟨S4096x47, .f32⟩
  | .hbm, ⟨106, _⟩ => ⟨S4096x47, .f32⟩
  | _, _ => ⟨S512000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x128_0_1 : S102400x1.BroadcastsInDim S102400x128 (![0, 1] : Fin 2 → Fin S102400x128.rank)
  bcast_S128_S1x128_1 : S128.BroadcastsInDim S1x128 (![1] : Fin 1 → Fin S1x128.rank)
  bcast_S1x128_S102400x128_0_1 : S1x128.BroadcastsInDim S102400x128 (![0, 1] : Fin 2 → Fin S102400x128.rank)
  bcast_S_S204800 : S_.BroadcastsInDim S204800 (![] : Fin 0 → Fin S204800.rank)
  bcast_S204800_S204800x1_0 : S204800.BroadcastsInDim S204800x1 (![0] : Fin 1 → Fin S204800x1.rank)
  bcast_S_S20480x128 : S_.BroadcastsInDim S20480x128 (![] : Fin 0 → Fin S20480x128.rank)
  bcast_S_S20480 : S_.BroadcastsInDim S20480 (![] : Fin 0 → Fin S20480.rank)
  bcast_S20480_S20480x1_0 : S20480.BroadcastsInDim S20480x1 (![0] : Fin 1 → Fin S20480x1.rank)
  bcast_S20480x1_S20480x128_0_1 : S20480x1.BroadcastsInDim S20480x128 (![0, 1] : Fin 2 → Fin S20480x128.rank)
  bcast_S1x128_S20480x128_0_1 : S1x128.BroadcastsInDim S20480x128 (![0, 1] : Fin 2 → Fin S20480x128.rank)
  concatenates_S20480x128_S20480x128_S20480x256_d1 : Shape.Concatenates [S20480x128, S20480x128] S20480x256 1
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  gather_S512000x128_S1024000x1_S1024000x128_1_0_n_n_0_1_1128_wf : GatherDims.WF S512000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S102400x128_S128x128_S102400x128_1_0_0_1_n_n_wf : DotDims.WF S102400x128 S128x128 S102400x128 [1] [0] [0] [1] [] []
  gather_S102400x128_S204800x1_S204800x128_1_0_n_n_0_1_1128_wf : GatherDims.WF S102400x128 S204800x1 S204800x128 [1] [0] [] [0] [] 1 ![1, 128]
  scatter_S20480x128_S204800x1_S204800x128_1_0_0_1_wf : ScatterDims.WF S20480x128 S204800x1 S204800x128 [1] [0] [0] 1
  scatter_S20480_S204800x1_S204800_n_0_0_1_wf : ScatterDims.WF S20480 S204800x1 S204800 [] [0] [0] 1
  dot_S20480x128_S128x128_S20480x128_1_0_0_1_n_n_wf : DotDims.WF S20480x128 S128x128 S20480x128 [1] [0] [0] [1] [] []
  gather_S20480x256_S40960x1_S40960x256_1_0_n_n_0_1_1256_wf : GatherDims.WF S20480x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x47_S4096x47_1_0_0_1_n_n_wf : DotDims.WF S4096x256 S256x47 S4096x47 [1] [0] [0] [1] [] []

variable [Facts₀]

def gather_S512000x128_S1024000x1_S1024000x128_1_0_n_n_0_1_1128 : GatherDims S512000x128 S1024000x1 S1024000x128 where
  offsetDims := [1]
  collapsedSliceDims := [0]
  operandBatchingDims := []
  startIndicesBatchingDims := []
  startIndexMap := [0]
  indexVectorDim := 1
  sliceSizes := ![1, 128]
  wf := gather_S512000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S102400x128_S128x128_S102400x128_1_0_0_1_n_n : DotDims S102400x128 S128x128 S102400x128 where
  lhsContracting := [1]
  rhsContracting := [0]
  lhsNonContracting := [0]
  rhsNonContracting := [1]
  lhsBatch := []
  rhsBatch := []
  wf := dot_S102400x128_S128x128_S102400x128_1_0_0_1_n_n_wf
def gather_S102400x128_S204800x1_S204800x128_1_0_n_n_0_1_1128 : GatherDims S102400x128 S204800x1 S204800x128 where
  offsetDims := [1]
  collapsedSliceDims := [0]
  operandBatchingDims := []
  startIndicesBatchingDims := []
  startIndexMap := [0]
  indexVectorDim := 1
  sliceSizes := ![1, 128]
  wf := gather_S102400x128_S204800x1_S204800x128_1_0_n_n_0_1_1128_wf
def scatter_S20480x128_S204800x1_S204800x128_1_0_0_1 : ScatterDims S20480x128 S204800x1 S204800x128 where
  updateWindowDims := [1]
  insertedWindowDims := [0]
  scatterDimsToOperandDims := [0]
  indexVectorDim := 1
  wf := scatter_S20480x128_S204800x1_S204800x128_1_0_0_1_wf
def scatter_S20480_S204800x1_S204800_n_0_0_1 : ScatterDims S20480 S204800x1 S204800 where
  updateWindowDims := []
  insertedWindowDims := [0]
  scatterDimsToOperandDims := [0]
  indexVectorDim := 1
  wf := scatter_S20480_S204800x1_S204800_n_0_0_1_wf
def dot_S20480x128_S128x128_S20480x128_1_0_0_1_n_n : DotDims S20480x128 S128x128 S20480x128 where
  lhsContracting := [1]
  rhsContracting := [0]
  lhsNonContracting := [0]
  rhsNonContracting := [1]
  lhsBatch := []
  rhsBatch := []
  wf := dot_S20480x128_S128x128_S20480x128_1_0_0_1_n_n_wf
def gather_S20480x256_S40960x1_S40960x256_1_0_n_n_0_1_1256 : GatherDims S20480x256 S40960x1 S40960x256 where
  offsetDims := [1]
  collapsedSliceDims := [0]
  operandBatchingDims := []
  startIndicesBatchingDims := []
  startIndexMap := [0]
  indexVectorDim := 1
  sliceSizes := ![1, 256]
  wf := gather_S20480x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.Stretch.lean ====
/-
  The host operations between the kernel regions, on the kernel's side.

  Each of the three stretches gathers rows of the previous layer's result along an edge list, sums them per destination
  node, and divides by the (clamped) number of edges per node. The reference program applies the very same operations,
  so each stretch's result is stated as the reference's own stage function of the same inputs, never opened: the
  aggregation is carried through the proof as one unread function.

  Beside that, the argument arrays are written by no host operation and by no region (a region only reads the ones it
  takes as windows), so at every boundary they hold what they held at the launch.
-/
import proofs.«150257_j18141941859028_1_alg».proof.Proof.Gen.KernelIdeal.Frame
import proofs.«150257_j18141941859028_1_alg».proof.Proof.Gen.ReferenceIdeal.Read
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The arguments at the first region's entry -/

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem W1_arg12 (c : Dev nD) : W1 m ρ c (Proc.devRef .tc main_arg12) = m ((c : Thread nD τ).loc main_arg12) := by
  show StableHlo.after hostOps0 (W0 m ρ c) (Proc.devRef .tc main_arg12) = _
  after_results_simp <;> rfl

/-! ## The first stretch: the aggregated input features -/

/-- What the first region finds in its activations' array: the reference's aggregated features of the same
    features and edge lists. -/
theorem entry0 (c : Dev nD) :
    V1 m ρ c main_v18
      = Cert.ReferenceIdeal.Read.val_main_v18 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-! ## The arguments at the first region's exit, and at the second region's entry -/

theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)

theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c
theorem W3_arg12 (c : Dev nD) : W3 m ρ c (Proc.devRef .tc main_arg12) = m ((c : Thread nD τ).loc main_arg12) := by
  show StableHlo.after hostOps1 (W2 m ρ c) (Proc.devRef .tc main_arg12) = _
  after_results_simp
  exact W2_arg12 m ρ c

/-! ## The second stretch: the aggregated first-layer activations -/

/-- What the second region finds in its activations' array, given what the first region left in its result array:
    the reference's aggregation of that, along the second pair of edge lists. -/
theorem entry1 (c : Dev nD) (x0 : (⟨Cert.ReferenceIdeal.S512000x128, .f32⟩ : BufTy).Contents (Elt Ideal)) (x1 x2 : (⟨Cert.ReferenceIdeal.S1024000, .i32⟩ : BufTy).Contents (Elt Ideal))
    (x7 : (⟨Cert.ReferenceIdeal.S128x128, .f32⟩ : BufTy).Contents (Elt Ideal)) (x8 : (⟨Cert.ReferenceIdeal.S128, .f32⟩ : BufTy).Contents (Elt Ideal))
    (h : W2 m ρ c (Proc.devRef .tc main_v19) = Cert.ReferenceIdeal.Read.val_main_v23 (F := Ideal) x0 x1 x2 x7 x8) :
    V3 m ρ c main_v38
      = Cert.ReferenceIdeal.Read.val_main_v42 (F := Ideal) x0 x1 x2 (m ((c : Thread nD τ).loc main_arg3)) (m ((c : Thread nD τ).loc main_arg4)) x7 x8 := by
  show StableHlo.after hostOps1 (W2 m ρ c) (Proc.devRef .tc main_v38) = _
  after_results_simp
  rw [W2_arg3 m ρ c, W2_arg4 m ρ c, h]
  rfl

/-! ## The arguments at the second region's exit, and at the third region's entry -/

theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)

theorem W5_arg11 (c : Dev nD) : W5 m ρ c (Proc.devRef .tc main_arg11) = m ((c : Thread nD τ).loc main_arg11) := by
  show StableHlo.after hostOps2 (W4 m ρ c) (Proc.devRef .tc main_arg11) = _
  after_results_simp
  exact W4_arg11 m ρ c
theorem W5_arg12 (c : Dev nD) : W5 m ρ c (Proc.devRef .tc main_arg12) = m ((c : Thread nD τ).loc main_arg12) := by
  show StableHlo.after hostOps2 (W4 m ρ c) (Proc.devRef .tc main_arg12) = _
  after_results_simp
  exact W4_arg12 m ρ c

/-! ## The third stretch: the aggregated second-layer activations -/

/-- What the third region finds in its activations' array, given what the second region left in its result array:
    the reference's aggregation of that, along the third pair of edge lists. -/
theorem entry2 (c : Dev nD) (x0 : (⟨Cert.ReferenceIdeal.S512000x128, .f32⟩ : BufTy).Contents (Elt Ideal)) (x1 x2 : (⟨Cert.ReferenceIdeal.S1024000, .i32⟩ : BufTy).Contents (Elt Ideal)) (x3 x4 : (⟨Cert.ReferenceIdeal.S204800, .i32⟩ : BufTy).Contents (Elt Ideal))
    (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal))
    (h : W4 m ρ c (Proc.devRef .tc main_v39) = Cert.ReferenceIdeal.Read.val_main_v48 (F := Ideal) x0 x1 x2 x3 x4 x7 x8 x9 x10) :
    V5 m ρ c main_v58
      = Cert.ReferenceIdeal.Read.val_main_v67 (F := Ideal) x0 x1 x2 x3 x4 (m ((c : Thread nD τ).loc main_arg5)) (m ((c : Thread nD τ).loc main_arg6)) x7 x8 x9 x10 := by
  show StableHlo.after hostOps2 (W4 m ρ c) (Proc.devRef .tc main_v58) = _
  after_results_simp
  rw [W4_arg5 m ρ c, W4_arg6 m ρ c, h]
  rfl

end Cert.KernelIdeal.Stretch

end
-- ==== Proof.Layers.lean ====
/-
  The three dense layers of the network, as functions of a matrix of activations, a matrix of weights and a
  row of biases, entry by entry over the extended reals.

  * `affine h w b` is the matrix `h · w` with `b` added to every row: entry `(p, q)` is
    `∑ j, h (p, j) · w (j, q)`, plus `b q`.
  * `reluAffine` clips every entry of that below at zero (the first layer).
  * `catAffine` sets the affine image and its clipped copy side by side: the columns `q < 128` hold
    `affine`, the columns `128 ≤ q` hold the clipped entry of column `q - 128` (the second layer, a skip
    connection).
  The third layer is `affine` itself.

  The row count `n` is a parameter, so that one definition speaks both of a block of rows and of the whole
  matrix: a block of rows of `affine h w b` is `affine` of the same block of rows of `h`.
-/
import Idealize.ShloMosaic.PureOps.Ideal
import Idealize.ShloMosaic.Lib.ValueIdx

noncomputable section

namespace Cert.Layers

open Idealize.ShloMosaic Idealize.ShloMosaic.ValueIdx

/-- An `r × c` matrix of extended reals, indexed as the rank-2 arrays of the programs are. -/
abbrev Mat (r c : ℕ) : Type := (⟨2, ![r, c]⟩ : Shape).Idx → EReal
/-- A row of `c` extended reals. -/
abbrev Row (c : ℕ) : Type := (⟨1, ![c]⟩ : Shape).Idx → EReal

/-- The zero the layers clip at: the float word `0x00000000` read as an extended real. -/
abbrev zero : EReal := Ideal.ofBits .f32 0x00000000#32

/-- `h · w + b`, the bias added to every row. -/
def affine {n k m : ℕ} (h : Mat n k) (w : Mat k m) (b : Row m) : Mat n m :=
  fun i => (∑ j : Fin k, h (ix2 (i 0) j) * w (ix2 j (i 1))) + b (ix1 (i 1))

theorem affine_apply {n k m : ℕ} (h : Mat n k) (w : Mat k m) (b : Row m) (p : Fin n) (q : Fin m) :
    affine h w b (ix2 p q) = (∑ j : Fin k, h (ix2 p j) * w (ix2 j q)) + b (ix1 q) := rfl

/-- `max (h · w + b) 0`, entry by entry. -/
def reluAffine {n k m : ℕ} (h : Mat n k) (w : Mat k m) (b : Row m) : Mat n m :=
  fun i => max (affine h w b i) zero

theorem reluAffine_apply {n k m : ℕ} (h : Mat n k) (w : Mat k m) (b : Row m) (p : Fin n) (q : Fin m) :
    reluAffine h w b (ix2 p q) = max ((∑ j : Fin k, h (ix2 p j) * w (ix2 j q)) + b (ix1 q)) zero := rfl

/-- `[h · w + b | max (h · w + b) 0]`: 128 affine columns, then their 128 clipped copies. -/
def catAffine {n : ℕ} (h : Mat n 128) (w : Mat 128 128) (b : Row 128) : Mat n 256 :=
  fun i =>
    if hq : (i 1).val < 128 then affine h w b (ix2 (i 0) ⟨(i 1).val, hq⟩)
    else max (affine h w b (ix2 (i 0) ⟨(i 1).val - 128, by have := idx2_lt1 i; omega⟩)) zero

theorem catAffine_left {n : ℕ} (h : Mat n 128) (w : Mat 128 128) (b : Row 128) (p : Fin n) (q : Fin 256)
    (hq : q.val < 128) : catAffine h w b (ix2 p q) = affine h w b (ix2 p ⟨q.val, hq⟩) := by
  show (if hq' : q.val < 128 then _ else _) = _
  rw [dif_pos hq]
  rfl

theorem catAffine_right {n : ℕ} (h : Mat n 128) (w : Mat 128 128) (b : Row 128) (p : Fin n) (q : Fin 256)
    (hq : ¬ q.val < 128) :
    catAffine h w b (ix2 p q) = max (affine h w b (ix2 p ⟨q.val - 128, by have := q.isLt; omega⟩)) zero := by
  show (if hq' : q.val < 128 then _ else _) = _
  rw [dif_neg hq]
  rfl

end Cert.Layers

end
-- ==== Proof.Region0.lean ====
/-
  The first dense layer, on the kernel's side: what one grid point's body computes from its block of 6400 rows, and
  what the whole 102400 × 128 result array holds once all 16 points have written their blocks back.
-/
import proofs.«150257_j18141941859028_1_alg».proof.Proof.Gen.KernelIdeal.Frame
import proofs.«150257_j18141941859028_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The product's operands at an entry

The contraction of the block of activations with the weights runs over the one shared axis: at the entry (p, q) and the
contraction index j the left operand is read at (p, j) and the right operand at (j, q). The four coordinate facts
below say so axis by axis. -/

private theorem lhs_product_0 (i : S6400x128.Idx) (j : dot_S6400x128_S128x128_S6400x128_1_0_0_1_n_n.contr.Idx) :
    (dot_S6400x128_S128x128_S6400x128_1_0_0_1_n_n.lhsIdx i j 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
private theorem lhs_product_1 (i : S6400x128.Idx) (j : dot_S6400x128_S128x128_S6400x128_1_0_0_1_n_n.contr.Idx) :
    (dot_S6400x128_S128x128_S6400x128_1_0_0_1_n_n.lhsIdx i j 1).val = (j ⟨0, by decide⟩).val :=
  dot_S6400x128_S128x128_S6400x128_1_0_0_1_n_n.lhsIdx_val_of_single rfl i j
private theorem rhs_product_0 (i : S6400x128.Idx) (j : dot_S6400x128_S128x128_S6400x128_1_0_0_1_n_n.contr.Idx) :
    (dot_S6400x128_S128x128_S6400x128_1_0_0_1_n_n.rhsIdx i j 0).val = (j ⟨0, by decide⟩).val :=
  dot_S6400x128_S128x128_S6400x128_1_0_0_1_n_n.rhsIdx_val_of_single rfl i j
private theorem rhs_product_1 (i : S6400x128.Idx) (j : dot_S6400x128_S128x128_S6400x128_1_0_0_1_n_n.contr.Idx) :
    (dot_S6400x128_S128x128_S6400x128_1_0_0_1_n_n.rhsIdx i j 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The product into a zero accumulator, at the entry (p, q): the sum over the shared axis of the products of the
    entries (p, j) of the left operand and (j, q) of the right operand. -/
private theorem product_apply {φ₁ φ₂ : FTy} (a : FVec Ideal S6400x128 φ₁) (w : FVec Ideal S128x128 φ₂) (p : Fin 6400) (q : Fin 128) :
    matmul dot_S6400x128_S128x128_S6400x128_1_0_0_1_n_n none a w (constant S6400x128 .f32 0x00000000#32) (ix2 p q)
      = ∑ j : Fin 128, a (ix2 p j) * w (ix2 j q) := by
  simp only [matmul]
  rw [Ideal.matmul_constant_zero_apply, ← Equiv.sum_comp (contrEquiv1 dot_S6400x128_S128x128_S6400x128_1_0_0_1_n_n 128 rfl rfl).symm]
  refine Finset.sum_congr rfl fun j _ => ?_
  have hj := contrEquiv1_symm_val dot_S6400x128_S128x128_S6400x128_1_0_0_1_n_n 128 rfl rfl j
  have el : dot_S6400x128_S128x128_S6400x128_1_0_0_1_n_n.lhsIdx (ix2 p q) ((contrEquiv1 dot_S6400x128_S128x128_S6400x128_1_0_0_1_n_n 128 rfl rfl).symm j) = ix2 p j := funext fun ax => Fin.ext (by
    match ax with
    | ⟨0, _⟩ => exact lhs_product_0 _ _
    | ⟨1, _⟩ => exact (lhs_product_1 _ _).trans hj)
  have er : dot_S6400x128_S128x128_S6400x128_1_0_0_1_n_n.rhsIdx (ix2 p q) ((contrEquiv1 dot_S6400x128_S128x128_S6400x128_1_0_0_1_n_n 128 rfl rfl).symm j) = ix2 j q := funext fun ax => Fin.ext (by
    match ax with
    | ⟨0, _⟩ => exact (rhs_product_0 _ _).trans hj
    | ⟨1, _⟩ => exact rhs_product_1 _ _)
  rw [el, er]

/-- The body's value on one block: the layer's function of the block of activations, the weights and the bias. -/
theorem payload (x0 : Vec Ideal S6400x128 .f32) (x1 : Vec Ideal S128x128 .f32) (x2 : Vec Ideal S128 .f32) :
    k0_pay1 (F := Ideal) x0 x1 x2 = Cert.Layers.reluAffine (n := 6400) (k := 128) (m := 128) x0 x1 x2 := by
  funext i
  -- an entry of the block is named by its row p and its column q
  obtain ⟨p, q, rfl⟩ : ∃ (p : Fin 6400) (q : Fin 128), i = ix2 p q := ⟨i 0, i 1, eq_ix2 i⟩
  rw [Cert.Layers.reluAffine_apply]
  unfold k0_pay1
  -- the clipping, the sum with the bias and the spreading of the bias over the rows are entry by entry; the product is
  -- the sum over the shared axis; rounding to the narrower format and the cast to the same shape change nothing
  rw [maximumf_apply, addf_apply, broadcast_apply, product_apply, broadcastTo_1b_ab_apply, shapeCast_a_1a_apply]
  simp only [truncf_apply, shapeCast_self]
  rfl

variable (V : (c : Dev nD) → (b : Ref sig .tc) → Buf (Elt Ideal) ((c : Thread nD τ).loc b))

/-! ## From the blocks to the array -/

private theorem zero_offsets2 : (![0, 0] : Fin 2 → Nat) = fun _ => 0 := funext fun a => by fin_cases a <;> rfl
private theorem zero_offsets1 : (![0] : Fin 1 → Nat) = fun _ => 0 := funext fun a => by fin_cases a <;> rfl

/-- The index maps over the 16 grid points: the block of activations moves with the block of results along the rows, the
    weights and the bias stay where they are, and the result's blocks are the 16 row blocks. -/
private theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 15 :=
  (by decide +kernel : ∀ t : Fin grid0.N, _)

/-- Every one of the 16 row blocks is some grid point's. -/
private theorem index_onto : ∀ r : Fin 16, ∃ t : Fin cfg0.N, win0_3.index t = ![r.val, 0] :=
  (by decide +kernel : ∀ r : Fin 16, ∃ t : Fin grid0.N, win0_3.index t = ![r.val, 0])

/-- An entry of the layer's function of a block of rows is the entry of the layer's function of the whole matrix at the
    row the block's row sits at: the entry reads one row of the activations, one column of the weights and one bias. -/
private theorem reluAffine_rows (H : Cert.Layers.Mat 102400 128) (W : Cert.Layers.Mat 128 128) (B : Cert.Layers.Row 128)
    (h : Cert.Layers.Mat 6400 128) (w : Cert.Layers.Mat 128 128) (b : Cert.Layers.Row 128)
    (y : S6400x128.Idx) (i : S102400x128.Idx)
    (hh : ∀ j : Fin 128, h (ix2 (y 0) j) = H (ix2 (i 0) j))
    (hw : ∀ j : Fin 128, w (ix2 j (y 1)) = W (ix2 j (i 1)))
    (hb : b (ix1 (y 1)) = B (ix1 (i 1))) :
    Cert.Layers.reluAffine h w b y = Cert.Layers.reluAffine H W B i := by
  show max ((∑ j : Fin 128, h (ix2 (y 0) j) * w (ix2 j (y 1))) + b (ix1 (y 1))) Cert.Layers.zero
    = max ((∑ j : Fin 128, H (ix2 (i 0) j) * W (ix2 j (i 1))) + B (ix1 (i 1))) Cert.Layers.zero
  rw [hb, Finset.sum_congr rfl fun j _ => by rw [hh j, hw j]]

/-- What grid point t writes back is block t of the layer's function of the whole arrays. -/
private theorem written_eq (c : Dev nD) (t : Fin cfg0.N) :
    (dat0 (F := Ideal) V c).flushed 3 t
      = ((cfg0.win 3).blk t).view.read (Elt Ideal)
          (Cert.Layers.reluAffine (n := 102400) (k := 128) (m := 128) (V c main_v18) (V c main_arg7) (V c main_arg8)) := by
  show (cfg0.win 3).cut (grid0.coords t) ((dat0 (F := Ideal) V c).after 3 t) = _
  rw [after0_3]
  unfold out0_3
  rw [View.canon_unit_zero zero_offsets2]
  simp only [View.ld_unit_zero (S := S6400x128) zero_offsets2, View.ld_unit_zero (S := S128x128) zero_offsets2,
    View.ld_unit_zero (S := S128) zero_offsets1]
  rw [payload]
  obtain ⟨e0, e1, e2, e3, e4, e5, e6⟩ := index_facts t
  funext y
  show Cert.Layers.reluAffine (iblk0 V c 0 t) (iblk0 V c 1 t) (iblk0 V c 2 t) y
    = Cert.Layers.reluAffine (V c main_v18) (V c main_arg7) (V c main_arg8) (((cfg0.win 3).blk t).view.emb y)
  refine reluAffine_rows (V c main_v18) (V c main_arg7) (V c main_arg8) (iblk0 V c 0 t) (iblk0 V c 1 t) (iblk0 V c 2 t) y
    (((cfg0.win 3).blk t).view.emb y) (fun j => ?_) (fun j => ?_) ?_
  · -- the row of activations: row (y 0) of block t is row t * 6400 + (y 0) of the array
    show V c main_v18 (((cfg0.win 0).blk t).view.emb (ix2 (y 0) j)) = V c main_v18 (ix2 ((((cfg0.win 3).blk t).view.emb y) 0) j)
    refine congrArg _ (funext fun a => Fin.ext ?_)
    match a with
    | ⟨0, _⟩ => show win0_0.index t (0 : Fin 2) * 6400 + 1 * (y 0).val = win0_3.index t (0 : Fin 2) * 6400 + 1 * (y 0).val; omega
    | ⟨1, _⟩ => show win0_0.index t (1 : Fin 2) * 128 + 1 * j.val = j.val; omega
  · -- the column of weights: the one block of the weights is the whole array
    show V c main_arg7 (((cfg0.win 1).blk t).view.emb (ix2 j (y 1))) = V c main_arg7 (ix2 j ((((cfg0.win 3).blk t).view.emb y) 1))
    refine congrArg _ (funext fun a => Fin.ext ?_)
    match a with
    | ⟨0, _⟩ => show win0_1.index t (0 : Fin 2) * 128 + 1 * j.val = j.val; omega
    | ⟨1, _⟩ => show win0_1.index t (1 : Fin 2) * 128 + 1 * (y 1).val = win0_3.index t (1 : Fin 2) * 128 + 1 * (y 1).val; omega
  · -- the bias: the one block of the bias is the whole row
    show V c main_arg8 (((cfg0.win 2).blk t).view.emb (ix1 (y 1))) = V c main_arg8 (ix1 ((((cfg0.win 3).blk t).view.emb y) 1))
    refine congrArg _ (funext fun a => Fin.ext ?_)
    match a with
    | ⟨0, _⟩ => show win0_2.index t (0 : Fin 1) * 128 + 1 * (y 1).val = win0_3.index t (1 : Fin 2) * 128 + 1 * (y 1).val; omega

/-- A place of the array is in grid point t's block exactly when each of its coordinates is in the block's range. -/
private theorem mem_block (t : Fin cfg0.N) (i : S102400x128.Idx) :
    i ∈ ((cfg0.win 3).blk t).view.set
      ↔ ∀ a : Fin 2, win0_3.index t a * S6400x128.size a ≤ (i a).val
          ∧ (i a).val < win0_3.index t a * S6400x128.size a + S6400x128.size a := by
  show i ∈ ((View.whole main_v19).slice (win0_3.rect t)).set ↔ _
  rw [View.set_slice_whole, Rect.mem_set_unit]
  exact Iff.rfl

/-- Every place of the array is in some grid point's block: row r is in the row block r / 6400. -/
private theorem covered (i : S102400x128.Idx) :
    ∃ t : Fin cfg0.N, (cfg0.win 3).flush t = true ∧ i ∈ ((cfg0.win 3).blk t).view.set := by
  have hi0 : (i 0).val < 102400 := (i 0).isLt
  have hi1 : (i 1).val < 128 := (i 1).isLt
  obtain ⟨t, ht⟩ := index_onto ⟨(i 0).val / 6400, by omega⟩
  have q0 : win0_3.index t (0 : Fin 2) = (i 0).val / 6400 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 6400 ≤ (i 0).val ∧ (i 0).val < win0_3.index t (0 : Fin 2) * 6400 + 6400
    omega
  | ⟨1, _⟩ =>
    show win0_3.index t (1 : Fin 2) * 128 ≤ (i 1).val ∧ (i 1).val < win0_3.index t (1 : Fin 2) * 128 + 128
    omega

/-- The result array when the region is left: the layer's function of the activations, the weights and the bias as the
    region found them. -/
theorem array (c : Dev nD) :
    (dat0 (F := Ideal) V c).arrAt 3 cfg0.N
      = Cert.Layers.reluAffine (n := 102400) (k := 128) (m := 128) (V c main_v18) (V c main_arg7) (V c main_arg8) := by
  exact (dat0 (F := Ideal) V c).arrAt_eq_of_cover 3 _ (fun t _ => written_eq V c t) covered

end Cert.KernelIdeal.Region0

end
-- ==== Proof.Region1.lean ====
/-
  The second dense layer (with the skip connection), on the kernel's side: what one grid point's body computes from its
  block of 2560 rows, and what the whole 20480 × 256 result array holds once all 8 points have written their blocks back.
-/
import proofs.«150257_j18141941859028_1_alg».proof.Proof.Gen.KernelIdeal.Frame
import proofs.«150257_j18141941859028_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The matrix product of a block of rows with the weights, entry by entry -/

/-- A row coordinate of the product's left operand is the output's row coordinate. -/
private theorem lhs_block_0 (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
/-- Its column coordinate is the summation index. -/
private theorem lhs_block_1 (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
/-- A row coordinate of the right operand is the summation index. -/
private theorem rhs_block_0 (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
/-- Its column coordinate is the output's column coordinate. -/
private theorem rhs_block_1 (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-- The product into a zero accumulator, at row `p` and column `q`: the sum over `k` of the activations at `(p, k)`
    times the weights at `(k, q)`. -/
private theorem product_entry (a : FVec Ideal S2560x128 .bf16) (w : FVec Ideal S128x128 .bf16) (p : Fin 2560) (q : Fin 128) :
    matmul dot_S2560x128_S128x128_S2560x128_1_0_0_1_n_n none a w (constant (F := Ideal) S2560x128 .f32 0x00000000#32) (ix2 p q)
      = ∑ k : Fin 128, a (ix2 p k) * w (ix2 k q) := by
  simp only [matmul]
  rw [Ideal.matmul_constant_zero_apply, ← Equiv.sum_comp (contrEquiv1 dot_S2560x128_S128x128_S2560x128_1_0_0_1_n_n 128 rfl rfl).symm]
  refine Finset.sum_congr rfl fun k _ => ?_
  have hk := contrEquiv1_symm_val dot_S2560x128_S128x128_S2560x128_1_0_0_1_n_n 128 rfl rfl k
  have el : dot_S2560x128_S128x128_S2560x128_1_0_0_1_n_n.lhsIdx (ix2 p q) ((contrEquiv1 dot_S2560x128_S128x128_S2560x128_1_0_0_1_n_n 128 rfl rfl).symm k) = ix2 p k := funext fun a => Fin.ext (by
    match a with
    | ⟨0, _⟩ => exact lhs_block_0 _ _
    | ⟨1, _⟩ => exact (lhs_block_1 _ _).trans hk)
  have er : dot_S2560x128_S128x128_S2560x128_1_0_0_1_n_n.rhsIdx (ix2 p q) ((contrEquiv1 dot_S2560x128_S128x128_S2560x128_1_0_0_1_n_n 128 rfl rfl).symm k) = ix2 k q := funext fun a => Fin.ext (by
    match a with
    | ⟨0, _⟩ => exact (rhs_block_0 _ _).trans hk
    | ⟨1, _⟩ => exact rhs_block_1 _ _)
  rw [el, er]

/-! ## The body's value on one block -/

/-- The product with the bias added to every row, at row `p` and column `q`, is the affine image's entry. -/
private theorem affine_entry (x0 : Vec Ideal S2560x128 .f32) (x1 : Vec Ideal S128x128 .f32) (x2 : Vec Ideal S128 .f32)
    (p : Fin 2560) (q : Fin 128) :
    addf (matmul dot_S2560x128_S128x128_S2560x128_1_0_0_1_n_n none
          (truncf .bf16 (shapeCast S2560x128 x0 shapeCasts_S2560x128_S2560x128) bitsLt_bf16_f32)
          (truncf .bf16 x1 bitsLt_bf16_f32) (constant (F := Ideal) S2560x128 .f32 0x00000000#32))
        (broadcastTo S2560x128 (shapeCast S1x128 x2 shapeCasts_S128_S1x128) broadcasts_S1x128_S2560x128) (ix2 p q)
      = Cert.Layers.affine (n := 2560) x0 x1 x2 (ix2 p q) := by
  rw [addf_apply, product_entry, shapeCast_self, Cert.Layers.affine_apply,
    broadcastTo_1b_ab_apply (a := 2560) (b := 128) _ broadcasts_S1x128_S2560x128 p q,
    shapeCast_a_1a_apply (a := 128) x2 shapeCasts_S128_S1x128 (0 : Fin 1) q]
  rfl

/-- The body's value on one block: the layer's function of the block of activations, the weights and the bias. -/
theorem payload (x0 : Vec Ideal S2560x128 .f32) (x1 : Vec Ideal S128x128 .f32) (x2 : Vec Ideal S128 .f32) :
    k1_pay1 (F := Ideal) x0 x1 x2 = Cert.Layers.catAffine (n := 2560) x0 x1 x2 := by
  funext i
  obtain ⟨p, q, rfl⟩ : ∃ (p : Fin 2560) (q : Fin 256), i = ix2 p q := ⟨i 0, i 1, eq_ix2 i⟩
  unfold k1_pay1
  by_cases hq : q.val < 128
  · -- a column of the left half: the affine image itself
    rw [Cert.Layers.catAffine_left _ _ _ p q hq, ← affine_entry]
    exact concatenate_pair_apply_left (t := S2560x256) (s₁ := S2560x128) (s₂ := S2560x128) (1 : Fin 2) _ _
      concatenates_S2560x128_S2560x128_S2560x256_d1 (ix2 p q) rfl
      (ix2 p (⟨q.val, hq⟩ : Fin 128)) (fun b => by match b with | ⟨0, _⟩ => rfl | ⟨1, _⟩ => rfl)
  · -- a column of the right half: the clipped copy of column q - 128
    rw [Cert.Layers.catAffine_right _ _ _ p q hq, ← affine_entry]
    exact concatenate_pair_apply_right (t := S2560x256) (s₁ := S2560x128) (s₂ := S2560x128) (1 : Fin 2) _ _
      concatenates_S2560x128_S2560x128_S2560x256_d1 (ix2 p q) rfl rfl
      (ix2 p (⟨q.val - 128, by have := q.isLt; omega⟩ : Fin 128))
      (fun b hb => by match b with | ⟨0, _⟩ => rfl | ⟨1, _⟩ => exact absurd rfl hb)
      (by show q.val - 128 + 128 = q.val; omega)

/-! ## From the blocks to the array -/

variable (V : (c : Dev nD) → (b : Ref sig .tc) → Buf (Elt Ideal) ((c : Thread nD τ).loc b))

private theorem origin2 : (![0, 0] : Fin 2 → Nat) = fun _ => 0 := funext fun a => by fin_cases a <;> rfl
private theorem origin1 : (![0] : Fin 1 → Nat) = fun _ => 0 := funext fun a => by fin_cases a <;> rfl

/-- A block of rows of the layer's function is the layer's function of the same block of rows of the activations: rows
    `r * 2560 ..` of `[h · w + b | max (h · w + b) 0]` only read rows `r * 2560 ..` of `h`. -/
private theorem block_of_layer (A : Vec Ideal S20480x128 .f32) (W : Vec Ideal S128x128 .f32) (b : Vec Ideal S128 .f32)
    (x0 : Vec Ideal S2560x128 .f32) (x1 : Vec Ideal S128x128 .f32) (x2 : Vec Ideal S128 .f32) (r : ℕ)
    (h0 : ∀ (y : S2560x128.Idx) (i : S20480x128.Idx), (i 0).val = r * 2560 + (y 0).val → (i 1).val = (y 1).val → x0 y = A i)
    (h1 : x1 = W) (h2 : x2 = b)
    (j : S2560x256.Idx) (i : S20480x256.Idx) (hi0 : (i 0).val = r * 2560 + (j 0).val) (hi1 : (i 1).val = (j 1).val) :
    Cert.Layers.catAffine (n := 2560) x0 x1 x2 j = Cert.Layers.catAffine (n := 20480) A W b i := by
  subst h1 h2
  obtain ⟨p, q, rfl⟩ : ∃ (p : Fin 2560) (q : Fin 256), j = ix2 p q := ⟨j 0, j 1, eq_ix2 j⟩
  obtain ⟨p', q', rfl⟩ : ∃ (p' : Fin 20480) (q' : Fin 256), i = ix2 p' q' := ⟨i 0, i 1, eq_ix2 i⟩
  have hp : p'.val = r * 2560 + p.val := hi0
  obtain rfl : q' = q := Fin.ext hi1
  -- entry by entry the affine images agree: the sums run over the same products
  have haff : ∀ s : Fin 128, Cert.Layers.affine (n := 2560) x0 x1 x2 (ix2 p s) = Cert.Layers.affine (n := 20480) A x1 x2 (ix2 p' s) := fun s => by
    rw [Cert.Layers.affine_apply, Cert.Layers.affine_apply]
    refine congrArg (· + x2 (ix1 s)) (Finset.sum_congr rfl fun k _ => ?_)
    rw [h0 (ix2 p k) (ix2 p' k) hp rfl]
  by_cases hq : q'.val < 128
  · rw [Cert.Layers.catAffine_left _ _ _ p q' hq, Cert.Layers.catAffine_left _ _ _ p' q' hq, haff]
  · rw [Cert.Layers.catAffine_right _ _ _ p q' hq, Cert.Layers.catAffine_right _ _ _ p' q' hq, haff]

/-- The index maps, decided once over the grid: the output's block at point `t` is block row `t`, the activations'
    block moves with it, and the weights and the bias are whole. -/
private theorem index_facts : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- What point `t` writes back is block `t` of the layer's function of the whole arrays. -/
private theorem written_back (c : Dev nD) (t : Fin cfg1.N) :
    (dat1 (F := Ideal) V c).flushed 3 t = ((cfg1.win 3).blk t).view.read (Elt Ideal)
      (Cert.Layers.catAffine (n := 20480) (V c main_v38) (V c main_arg9) (V c main_arg10)) := by
  show (cfg1.win 3).cut (grid1.coords t) ((dat1 V c).after 3 t) = _
  rw [after1_3]
  unfold out1_3
  rw [View.canon_unit_zero origin2]
  simp only [View.ld_unit_zero (S := S2560x128) origin2, View.ld_unit_zero (S := S128x128) origin2,
    View.ld_unit_zero (S := S128) origin1]
  obtain ⟨e00, e01, e10, e11, e20, e30, e31⟩ := index_facts t
  funext j
  show k1_pay1 (F := Ideal) (iblk1 V c 0 t) (iblk1 V c 1 t) (iblk1 V c 2 t) j
    = Cert.Layers.catAffine (n := 20480) (V c main_v38) (V c main_arg9) (V c main_arg10) (((cfg1.win 3).blk t).view.emb j)
  rw [payload]
  refine block_of_layer (V c main_v38) (V c main_arg9) (V c main_arg10) (iblk1 V c 0 t) (iblk1 V c 1 t) (iblk1 V c 2 t)
    (win1_3.index t (0 : Fin 2)) ?_ ?_ ?_ j _ ?_ ?_
  · -- the activations' block, read where the output's rows say
    intro y i hi0 hi1
    show V c main_v38 (((cfg1.win 0).blk t).view.emb y) = V c main_v38 i
    refine congrArg _ (funext fun a => Fin.ext ?_)
    match a with
    | ⟨0, _⟩ => show win1_0.index t (0 : Fin 2) * 2560 + 1 * (y 0).val = (i 0).val; omega
    | ⟨1, _⟩ => show win1_0.index t (1 : Fin 2) * 128 + 1 * (y 1).val = (i 1).val; omega
  · -- the weights' block is the whole matrix
    funext y
    show V c main_arg9 (((cfg1.win 1).blk t).view.emb y) = V c main_arg9 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · -- the bias' block is the whole row
    funext y
    show V c main_arg10 (((cfg1.win 2).blk t).view.emb y) = V c main_arg10 y
    refine congrArg _ (funext fun a => Fin.ext ?_)
    match a with
    | ⟨0, _⟩ => show win1_2.index t (0 : Fin 1) * 128 + 1 * (y 0).val = (y 0).val; omega
  · show win1_3.index t (0 : Fin 2) * 2560 + 1 * (j 0).val = win1_3.index t (0 : Fin 2) * 2560 + (j 0).val; omega
  · show win1_3.index t (1 : Fin 2) * 256 + 1 * (j 1).val = (j 1).val; omega

/-- An index of the array is in point `t`'s block iff each coordinate is in the block's range on its axis. -/
private theorem mem_block (t : Fin cfg1.N) (i : S20480x256.Idx) :
    i ∈ ((cfg1.win 3).blk t).view.set ↔ ∀ a : Fin 2, win1_3.index t a * S2560x256.size a ≤ (i a).val ∧ (i a).val < win1_3.index t a * S2560x256.size a + S2560x256.size a := by
  show i ∈ ((View.whole main_v39).slice (win1_3.rect t)).set ↔ _
  rw [View.set_slice_whole, Rect.mem_set_unit]
  exact Iff.rfl

/-- Every row of the array is in some point's block: row `r` in that of point `r / 2560`. -/
private theorem covered (i : S20480x256.Idx) :
    ∃ t : Fin cfg1.N, (cfg1.win 3).flush t = true ∧ i ∈ ((cfg1.win 3).blk t).view.set := by
  have hi0 : (i 0).val < 20480 := (i 0).isLt
  have hi1 : (i 1).val < 256 := (i 1).isLt
  have hN : cfg1.N = 8 := N_1
  let t : Fin cfg1.N := ⟨(i 0).val / 2560, by rw [hN]; omega⟩
  obtain ⟨e00, e01, e10, e11, e20, e30, e31⟩ := index_facts t
  have ht : t.val = (i 0).val / 2560 := rfl
  refine ⟨t, flush1_3 t, ?_⟩
  rw [mem_block]
  intro a
  match a with
  | ⟨0, _⟩ => show win1_3.index t (0 : Fin 2) * 2560 ≤ (i 0).val ∧ (i 0).val < win1_3.index t (0 : Fin 2) * 2560 + 2560; omega
  | ⟨1, _⟩ => show win1_3.index t (1 : Fin 2) * 256 ≤ (i 1).val ∧ (i 1).val < win1_3.index t (1 : Fin 2) * 256 + 256; omega

/-- The result array when the region is left: the layer's function of the activations, the weights and the bias as the
    region found them. -/
theorem array (c : Dev nD) :
    (dat1 (F := Ideal) V c).arrAt 3 cfg1.N
      = Cert.Layers.catAffine (n := 20480) (V c main_v38) (V c main_arg9) (V c main_arg10) :=
  (dat1 (F := Ideal) V c).arrAt_eq_of_cover 3 _ (fun t _ => written_back V c t) covered

end Cert.KernelIdeal.Region1

end
-- ==== Proof.Region2.lean ====
/-
  The last dense layer, on the kernel's side: what one grid point's body computes from its block of 1024 rows, and what
  the whole 4096 × 47 result array holds once all 4 points have written their blocks back.
-/
import proofs.«150257_j18141941859028_1_alg».proof.Proof.Gen.KernelIdeal.Frame
import proofs.«150257_j18141941859028_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## One block: the body's arithmetic, entry by entry -/

/-- The product's left operand is read at the output's row: axis 0 of the left index is the output's axis 0. -/
private theorem lhs_axis0 (i : S1024x47.Idx) (q : dot_S1024x256_S256x47_S1024x47_1_0_0_1_n_n.contr.Idx) :
    (dot_S1024x256_S256x47_S1024x47_1_0_0_1_n_n.lhsIdx i q 0).val = (i 0).val := by
  unfold DotDims.lhsIdx
  rw [dif_neg (show ¬(0 : Fin S1024x256.rank) ∈ dot_S1024x256_S256x47_S1024x47_1_0_0_1_n_n.lhsBatch by decide), dif_pos (show (0 : Fin S1024x256.rank) ∈ dot_S1024x256_S256x47_S1024x47_1_0_0_1_n_n.lhsNonContracting by decide)]
  rfl

/-- Axis 1 of the left index is the summation index. -/
private theorem lhs_axis1 (i : S1024x47.Idx) (q : dot_S1024x256_S256x47_S1024x47_1_0_0_1_n_n.contr.Idx) :
    (dot_S1024x256_S256x47_S1024x47_1_0_0_1_n_n.lhsIdx i q 1).val = (q ⟨0, by decide⟩).val :=
  dot_S1024x256_S256x47_S1024x47_1_0_0_1_n_n.lhsIdx_val_of_single rfl i q

/-- Axis 0 of the right index is the summation index. -/
private theorem rhs_axis0 (i : S1024x47.Idx) (q : dot_S1024x256_S256x47_S1024x47_1_0_0_1_n_n.contr.Idx) :
    (dot_S1024x256_S256x47_S1024x47_1_0_0_1_n_n.rhsIdx i q 0).val = (q ⟨0, by decide⟩).val :=
  dot_S1024x256_S256x47_S1024x47_1_0_0_1_n_n.rhsIdx_val_of_single rfl i q

/-- Axis 1 of the right index is the output's column. -/
private theorem rhs_axis1 (i : S1024x47.Idx) (q : dot_S1024x256_S256x47_S1024x47_1_0_0_1_n_n.contr.Idx) :
    (dot_S1024x256_S256x47_S1024x47_1_0_0_1_n_n.rhsIdx i q 1).val = (i 1).val := by
  unfold DotDims.rhsIdx
  rw [dif_neg (show ¬(1 : Fin S256x47.rank) ∈ dot_S1024x256_S256x47_S1024x47_1_0_0_1_n_n.rhsBatch by decide), dif_pos (show (1 : Fin S256x47.rank) ∈ dot_S1024x256_S256x47_S1024x47_1_0_0_1_n_n.rhsNonContracting by decide)]
  rfl

/-- The matrix product into a zero accumulator, at row `p` and column `q`: the sum over the 256 inner indices. -/
private theorem product_apply {φ₁ φ₂ : FTy} (a : FVec Ideal S1024x256 φ₁) (w : FVec Ideal S256x47 φ₂) (p : Fin 1024) (q : Fin 47) :
    matmul dot_S1024x256_S256x47_S1024x47_1_0_0_1_n_n none a w (constant (F := Ideal) S1024x47 .f32 0x00000000#32) (ix2 p q)
      = ∑ k : Fin 256, a (ix2 p k) * w (ix2 k q) := by
  show FloatOps.matmul dot_S1024x256_S256x47_S1024x47_1_0_0_1_n_n none a w (constant (F := Ideal) S1024x47 .f32 0x00000000#32) (ix2 p q) = _
  rw [Ideal.matmul_constant_zero_apply, ← Equiv.sum_comp (ValueIdx.contrEquiv1 dot_S1024x256_S256x47_S1024x47_1_0_0_1_n_n 256 rfl rfl).symm]
  refine Finset.sum_congr rfl fun k _ => ?_
  have hk := ValueIdx.contrEquiv1_symm_val dot_S1024x256_S256x47_S1024x47_1_0_0_1_n_n 256 rfl rfl k
  have el : dot_S1024x256_S256x47_S1024x47_1_0_0_1_n_n.lhsIdx (ix2 p q) ((ValueIdx.contrEquiv1 dot_S1024x256_S256x47_S1024x47_1_0_0_1_n_n 256 rfl rfl).symm k) = ix2 p k := funext fun ax => Fin.ext (by
    match ax with
    | ⟨0, _⟩ => exact lhs_axis0 _ _
    | ⟨1, _⟩ => exact (lhs_axis1 _ _).trans hk)
  have er : dot_S1024x256_S256x47_S1024x47_1_0_0_1_n_n.rhsIdx (ix2 p q) ((ValueIdx.contrEquiv1 dot_S1024x256_S256x47_S1024x47_1_0_0_1_n_n 256 rfl rfl).symm k) = ix2 k q := funext fun ax => Fin.ext (by
    match ax with
    | ⟨0, _⟩ => exact (rhs_axis0 _ _).trans hk
    | ⟨1, _⟩ => exact rhs_axis1 _ _)
  rw [el, er]

/-- The body's value on one block: the layer's function of the block of activations, the weights and the bias. -/
theorem payload (x0 : Vec Ideal S1024x256 .f32) (x1 : Vec Ideal S256x47 .f32) (x2 : Vec Ideal S47 .f32) :
    k2_pay1 (F := Ideal) x0 x1 x2 = Cert.Layers.affine (n := 1024) (k := 256) (m := 47) x0 x1 x2 := by
  funext i
  obtain ⟨p, q, rfl⟩ : ∃ (p : Fin 1024) (q : Fin 47), i = ix2 p q := ⟨i 0, i 1, eq_ix2 i⟩
  rw [Cert.Layers.affine_apply]
  unfold k2_pay1
  rw [addf_apply, product_apply, broadcastTo_1b_ab_apply, shapeCast_a_1a_apply]
  simp only [truncf_apply, Idealize.ShloMosaic.shapeCast_self]

/-! ## From the blocks to the array -/

/-- The rectangles the body loads and stores through start at the origin. -/
private theorem origin2 : (![0, 0] : Fin 2 → Nat) = fun _ => 0 :=
  funext fun a => by match a with | ⟨0, _⟩ => rfl | ⟨1, _⟩ => rfl

private theorem origin1 : (![0] : Fin 1 → Nat) = fun _ => 0 :=
  funext fun a => by match a with | ⟨0, _⟩ => rfl

/-- The index maps, decided once over the 4 grid points: the block of activations moves with the output's block of
    rows; the weights and the bias stay whole; the output's block of rows at point `t` is the `t`-th. -/
private theorem index_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = t.val
    ∧ win2_3.index t (1 : Fin 2) = 0 :=
  (by decide +kernel : ∀ t : Fin grid2.N, _)

/-- One entry of a block of rows: if the block's row `p` is the matrix's row `r`, and the weights and the bias are the
    same, the layer's function of the block at `(p, q)` is the layer's function of the matrix at `(r, q)`. -/
private theorem affine_row {n n' : ℕ} (h : Cert.Layers.Mat n 256) (H : Cert.Layers.Mat n' 256)
    (w W : Cert.Layers.Mat 256 47) (b B : Cert.Layers.Row 47) (p : Fin n) (r : Fin n') (q : Fin 47)
    (hh : ∀ k : Fin 256, h (ix2 p k) = H (ix2 r k)) (hw : w = W) (hb : b = B) :
    Cert.Layers.affine h w b (ix2 p q) = Cert.Layers.affine H W B (ix2 r q) := by
  subst hw hb
  rw [Cert.Layers.affine_apply, Cert.Layers.affine_apply]
  exact congrArg (· + b (ix1 q)) (Finset.sum_congr rfl fun k _ => by rw [hh k])

variable (V : (c : Dev nD) → (b : Ref sig .tc) → Buf (Elt Ideal) ((c : Thread nD τ).loc b))

/-- The weights' window is the whole array at every point. -/
private theorem weights_block (c : Dev nD) (t : Fin cfg2.N) : iblk2 V c 1 t = V c main_arg11 := by
  obtain ⟨-, -, e2, e3, -, -, -⟩ := index_facts t
  funext y
  show V c main_arg11 (((cfg2.win 1).blk t).view.emb y) = V c main_arg11 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 47 + 1 * (y 1).val = (y 1).val; omega

/-- The bias's window is the whole array at every point. -/
private theorem bias_block (c : Dev nD) (t : Fin cfg2.N) : iblk2 V c 2 t = V c main_arg12 := by
  obtain ⟨-, -, -, -, e4, -, -⟩ := index_facts t
  funext y
  show V c main_arg12 (((cfg2.win 2).blk t).view.emb y) = V c main_arg12 y
  refine congrArg _ (funext fun a => Fin.ext ?_)
  match a with
  | ⟨0, _⟩ => show win2_2.index t (0 : Fin 1) * 47 + 1 * (y 0).val = (y 0).val; omega

/-- Row `p` of the block of activations at point `t` is row `1024 t + p` of the matrix. -/
private theorem activations_block (c : Dev nD) (t : Fin cfg2.N) (p : Fin 1024) (k : Fin 256) (r : Fin 4096)
    (hr : r.val = win2_3.index t (0 : Fin 2) * 1024 + 1 * p.val) :
    iblk2 V c 0 t (ix2 p k) = V c main_v58 (ix2 r k) := by
  obtain ⟨e0, e1, -, -, -, -, -⟩ := index_facts t
  show V c main_v58 (((cfg2.win 0).blk t).view.emb (ix2 p k)) = V c main_v58 (ix2 r k)
  refine congrArg _ (funext fun a => Fin.ext ?_)
  match a with
  | ⟨0, _⟩ => show win2_0.index t (0 : Fin 2) * 1024 + 1 * p.val = r.val; omega
  | ⟨1, _⟩ => show win2_0.index t (1 : Fin 2) * 256 + 1 * k.val = k.val; omega

/-- What point `t` writes back is block `t` of the layer's function of the whole arrays. -/
private theorem written_back (c : Dev nD) (t : Fin cfg2.N) :
    (dat2 (F := Ideal) V c).flushed 3 t
      = ((cfg2.win 3).blk t).view.read (Elt Ideal)
          (Cert.Layers.affine (n := 4096) (k := 256) (m := 47) (V c main_v58) (V c main_arg11) (V c main_arg12)) := by
  show (cfg2.win 3).cut (grid2.coords t) ((dat2 V c).after 3 t) = _
  rw [after2_3]
  unfold out2_3
  rw [View.canon_unit_zero origin2]
  simp only [View.ld_unit_zero (S := S1024x256) origin2, View.ld_unit_zero (S := S256x47) origin2, View.ld_unit_zero (S := S47) origin1]
  rw [payload, weights_block, bias_block]
  funext j
  obtain ⟨p, q, rfl⟩ : ∃ (p : Fin 1024) (q : Fin 47), j = ix2 p q := ⟨j 0, j 1, eq_ix2 j⟩
  show Cert.Layers.affine (iblk2 V c 0 t) (V c main_arg11) (V c main_arg12) (ix2 p q)
    = Cert.Layers.affine (n := 4096) (V c main_v58) (V c main_arg11) (V c main_arg12) (((cfg2.win 3).blk t).view.emb (ix2 p q))
  have hp : p.val < 1024 := p.isLt
  obtain ⟨-, -, -, -, -, e5, e6⟩ := index_facts t
  have ht : t.val < 4 := (show t.val < grid2.N from t.isLt).trans_eq N_2
  have hrow : ((((cfg2.win 3).blk t).view.emb (ix2 p q)) 0).val = win2_3.index t (0 : Fin 2) * 1024 + 1 * p.val := rfl
  have hcol : ((((cfg2.win 3).blk t).view.emb (ix2 p q)) 1).val = win2_3.index t (1 : Fin 2) * 47 + 1 * q.val := rfl
  have hemb : ((cfg2.win 3).blk t).view.emb (ix2 p q)
      = ix2 (⟨win2_3.index t (0 : Fin 2) * 1024 + 1 * p.val, by omega⟩ : Fin 4096) q :=
    funext fun a => Fin.ext (by
      match a with
      | ⟨0, _⟩ => exact hrow
      | ⟨1, _⟩ => exact hcol.trans (by show win2_3.index t (1 : Fin 2) * 47 + 1 * q.val = q.val; omega))
  rw [hemb]
  exact affine_row _ _ _ _ _ _ p _ q (fun k => activations_block V c t p k _ rfl) rfl rfl

/-- An index of the array is in point `t`'s block iff each coordinate is in the block's range on its axis. -/
private theorem mem_block (t : Fin cfg2.N) (i : S4096x47.Idx) :
    i ∈ ((cfg2.win 3).blk t).view.set ↔ ∀ a : Fin 2, win2_3.index t a * S1024x47.size a ≤ (i a).val ∧ (i a).val < win2_3.index t a * S1024x47.size a + S1024x47.size a := by
  show i ∈ ((View.whole main_v59).slice (win2_3.rect t)).set ↔ _
  rw [View.set_slice_whole, Rect.mem_set_unit]
  exact Iff.rfl

/-- Row `r` is in the block of point `r / 1024`: the 4 blocks of 1024 rows fill the 4096 rows. -/
private theorem covered (i : S4096x47.Idx) :
    ∃ t : Fin cfg2.N, (cfg2.win 3).flush t = true ∧ i ∈ ((cfg2.win 3).blk t).view.set := by
  have hi0 : (i 0).val < 4096 := (i 0).isLt
  have hi1 : (i 1).val < 47 := (i 1).isLt
  obtain ⟨t, ht⟩ : ∃ t : Fin cfg2.N, t.val = (i 0).val / 1024 :=
    ⟨⟨(i 0).val / 1024, by show (i 0).val / 1024 < grid2.N; rw [N_2]; omega⟩, rfl⟩
  obtain ⟨-, -, -, -, -, e5, e6⟩ := index_facts t
  refine ⟨t, flush2_3 t, ?_⟩
  rw [mem_block]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 47 ≤ (i 1).val ∧ (i 1).val < win2_3.index t (1 : Fin 2) * 47 + 47; omega

/-- The result array when the region is left: the layer's function of the activations, the weights and the bias as the
    region found them. -/
theorem array (c : Dev nD) :
    (dat2 (F := Ideal) V c).arrAt 3 cfg2.N
      = Cert.Layers.affine (n := 4096) (k := 256) (m := 47) (V c main_v58) (V c main_arg11) (V c main_arg12) :=
  (dat2 (F := Ideal) V c).arrAt_eq_of_cover 3 _ (fun t _ => written_back V c t) covered

end Cert.KernelIdeal.Region2

end
-- ==== Proof.RefLayer1.lean ====
/-
  The first dense layer, on the reference's side: its matrix product, bias and clipping, read entry by entry, are the
  layer's function of the aggregated features, the weights and the bias.
-/
import proofs.«150257_j18141941859028_1_alg».proof.Proof.Gen.ReferenceIdeal.Read
import proofs.«150257_j18141941859028_1_alg».proof.Proof.Layers
import Idealize.ShloMosaic.Lib.Pipeline.Value
import Idealize.ShloMosaic.Lib.ValueIdx
import Idealize.ShloMosaic.PureOps.Ideal.Laws

noncomputable section

namespace Cert.ReferenceIdeal.RefLayer1

open Cert.ReferenceIdeal Cert.ReferenceIdeal.Read Idealize.ShloMosaic Idealize.ShloMosaic.TcCoe Idealize.ShloMosaic.ValueIdx

/-- The reference's stage after this layer is the layer's function of the stage before it. -/
theorem layer_eq (x0 : (⟨S512000x128, .f32⟩ : BufTy).Contents (Elt Ideal)) (x1 x2 : (⟨S1024000, .i32⟩ : BufTy).Contents (Elt Ideal)) (x7 : (⟨S128x128, .f32⟩ : BufTy).Contents (Elt Ideal)) (x8 : (⟨S128, .f32⟩ : BufTy).Contents (Elt Ideal)) :
    val_main_v23 (F := Ideal) x0 x1 x2 x7 x8
      = Cert.Layers.reluAffine (n := 102400) (k := 128) (m := 128) (val_main_v18 (F := Ideal) x0 x1 x2) x7 x8 := by
  funext i
  -- an entry of the matrix is named by its row p and its column q
  obtain ⟨p, q, rfl⟩ : ∃ (p : Fin 102400) (q : Fin 128), i = ix2 p q := ⟨i 0, i 1, eq_ix2 i⟩
  -- the product's entry reads the left factor at (p, j) and the right factor at (j, q)
  have hl : ∀ j : Fin 128, lidx_main_v19 (ix2 p q) j = ix2 p j := fun j =>
    funext fun a => Fin.ext (by match a with | ⟨0, _⟩ => rfl | ⟨1, _⟩ => rfl)
  have hr : ∀ j : Fin 128, ridx_main_v19 (ix2 p q) j = ix2 j q := fun j =>
    funext fun a => Fin.ext (by match a with | ⟨0, _⟩ => rfl | ⟨1, _⟩ => rfl)
  -- the bias, spread over the rows, is read at the column q
  have hb : idx_main_v20 (idx_main_v21 (ix2 p q)) = ix1 q :=
    funext fun a => Fin.ext (by match a with | ⟨0, _⟩ => rfl)
  rw [Cert.Layers.reluAffine_apply, val_main_v23_apply, val_main_v22_apply, val_main_v19_apply, val_main_v21_apply,
    val_main_v20_apply, val_main_call0_v0_apply, val_main_call0_cst_apply]
  simp only [hl, hr, hb, Ideal.maximumf_def, Ideal.addf_def, Ideal.ofBits_def]

end Cert.ReferenceIdeal.RefLayer1

end
-- ==== Proof.RefLayer2.lean ====
/-
  The second dense layer, on the reference's side: its matrix product and bias, set beside their clipped copy, read
  entry by entry, are the layer's function of the aggregated activations, the weights and the bias.
-/
import proofs.«150257_j18141941859028_1_alg».proof.Proof.Gen.ReferenceIdeal.Read
import proofs.«150257_j18141941859028_1_alg».proof.Proof.Layers
import Idealize.ShloMosaic.Lib.Pipeline.Value
import Idealize.ShloMosaic.Lib.ValueIdx
import Idealize.ShloMosaic.PureOps.Ideal.Laws

noncomputable section

namespace Cert.ReferenceIdeal.RefLayer2

open Cert.ReferenceIdeal Cert.ReferenceIdeal.Read Idealize.ShloMosaic Idealize.ShloMosaic.TcCoe Idealize.ShloMosaic.ValueIdx

/-- The composed index functions of the matrix product, on an index given by its coordinates. -/
private theorem lidx_eq (p : Fin 20480) (q : Fin 128) (k : Fin 128) :
    lidx_main_v43 (ix2 p q) k = ix2 p k :=
  funext fun a => Fin.ext (by match a with | ⟨0, _⟩ => rfl | ⟨1, _⟩ => rfl)

private theorem ridx_eq (p : Fin 20480) (q : Fin 128) (k : Fin 128) :
    ridx_main_v43 (ix2 p q) k = ix2 k q :=
  funext fun a => Fin.ext (by match a with | ⟨0, _⟩ => rfl | ⟨1, _⟩ => rfl)

/-- The bias row, broadcast to every row of the matrix, is read at its column. -/
private theorem bias_idx_eq (p : Fin 20480) (q : Fin 128) :
    idx_main_v44 (idx_main_v45 (ix2 p q)) = ix1 q :=
  funext fun a => Fin.ext (by match a with | ⟨0, _⟩ => rfl)

/-- The matrix product with the bias added, entry by entry, is the affine image. -/
private theorem affine_stage (x0 : (⟨S512000x128, .f32⟩ : BufTy).Contents (Elt Ideal)) (x1 x2 : (⟨S1024000, .i32⟩ : BufTy).Contents (Elt Ideal)) (x3 x4 : (⟨S204800, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (p : Fin 20480) (q : Fin 128) :
    val_main_v46 (F := Ideal) x0 x1 x2 x3 x4 x7 x8 x9 x10 (ix2 p q)
      = Cert.Layers.affine (n := 20480) (val_main_v42 (F := Ideal) x0 x1 x2 x3 x4 x7 x8) x9 x10 (ix2 p q) := by
  rw [val_main_v46_apply, val_main_v43_apply, val_main_v45_apply, val_main_v44_apply, Cert.Layers.affine_apply,
    bias_idx_eq]
  simp only [lidx_eq, ridx_eq]
  rfl

/-- The clipped copy, entry by entry, is the affine image clipped below at zero. -/
private theorem relu_stage (x0 : (⟨S512000x128, .f32⟩ : BufTy).Contents (Elt Ideal)) (x1 x2 : (⟨S1024000, .i32⟩ : BufTy).Contents (Elt Ideal)) (x3 x4 : (⟨S204800, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (p : Fin 20480) (q : Fin 128) :
    val_main_v47 (F := Ideal) x0 x1 x2 x3 x4 x7 x8 x9 x10 (ix2 p q)
      = max (Cert.Layers.affine (n := 20480) (val_main_v42 (F := Ideal) x0 x1 x2 x3 x4 x7 x8) x9 x10 (ix2 p q)) Cert.Layers.zero := by
  rw [val_main_v47_apply, affine_stage, val_main_call1_v0_apply, val_main_call1_cst_apply]
  rfl

/-- The reference's stage after this layer is the layer's function of the stage before it. -/
theorem layer_eq (x0 : (⟨S512000x128, .f32⟩ : BufTy).Contents (Elt Ideal)) (x1 x2 : (⟨S1024000, .i32⟩ : BufTy).Contents (Elt Ideal)) (x3 x4 : (⟨S204800, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v48 (F := Ideal) x0 x1 x2 x3 x4 x7 x8 x9 x10
      = Cert.Layers.catAffine (n := 20480) (val_main_v42 (F := Ideal) x0 x1 x2 x3 x4 x7 x8) x9 x10 := by
  funext i
  obtain ⟨p, q, rfl⟩ : ∃ (p : Fin 20480) (q : Fin 256), i = ix2 p q := ⟨i 0, i 1, eq_ix2 i⟩
  unfold val_main_v48
  by_cases hq : q.val < 128
  · -- a column of the left half: the affine image itself
    rw [Cert.Layers.catAffine_left _ _ _ p q hq, ← affine_stage]
    exact concatenate_pair_apply_left (t := S20480x256) (s₁ := S20480x128) (s₂ := S20480x128) (1 : Fin 2) _ _
      Cert.ReferenceIdeal.Gen.concatenates_S20480x128_S20480x128_S20480x256_d1 (ix2 p q) rfl
      (ix2 p (⟨q.val, hq⟩ : Fin 128)) (fun b => by match b with | ⟨0, _⟩ => rfl | ⟨1, _⟩ => rfl)
  · -- a column of the right half: the clipped copy of column q - 128
    rw [Cert.Layers.catAffine_right _ _ _ p q hq, ← relu_stage]
    exact concatenate_pair_apply_right (t := S20480x256) (s₁ := S20480x128) (s₂ := S20480x128) (1 : Fin 2) _ _
      Cert.ReferenceIdeal.Gen.concatenates_S20480x128_S20480x128_S20480x256_d1 (ix2 p q) rfl rfl
      (ix2 p (⟨q.val - 128, by have := q.isLt; omega⟩ : Fin 128))
      (fun b hb => by match b with | ⟨0, _⟩ => rfl | ⟨1, _⟩ => exact absurd rfl hb)
      (by show q.val - 128 + 128 = q.val; omega)

end Cert.ReferenceIdeal.RefLayer2

end
-- ==== Proof.RefLayer3.lean ====
/-
  The last dense layer, on the reference's side: its matrix product and bias, read entry by entry, are the layer's
  function of the aggregated activations, the weights and the bias.
-/
import proofs.«150257_j18141941859028_1_alg».proof.Proof.Gen.ReferenceIdeal.Read
import proofs.«150257_j18141941859028_1_alg».proof.Proof.Layers
import Idealize.ShloMosaic.Lib.Pipeline.Value
import Idealize.ShloMosaic.Lib.ValueIdx
import Idealize.ShloMosaic.PureOps.Ideal.Laws

noncomputable section

namespace Cert.ReferenceIdeal.RefLayer3

open Cert.ReferenceIdeal Cert.ReferenceIdeal.Read Idealize.ShloMosaic Idealize.ShloMosaic.TcCoe Idealize.ShloMosaic.ValueIdx

/-- The reference's stage after this layer is the layer's function of the stage before it. -/
theorem layer_eq (x0 : (⟨S512000x128, .f32⟩ : BufTy).Contents (Elt Ideal)) (x1 x2 : (⟨S1024000, .i32⟩ : BufTy).Contents (Elt Ideal)) (x3 x4 : (⟨S204800, .i32⟩ : BufTy).Contents (Elt Ideal)) (x5 x6 : (⟨S40960, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x47, .f32⟩ : BufTy).Contents (Elt Ideal)) (x12 : (⟨S47, .f32⟩ : BufTy).Contents (Elt Ideal)) :
    val_main_v71 (F := Ideal) x0 x1 x2 x3 x4 x5 x6 x7 x8 x9 x10 x11 x12
      = Cert.Layers.affine (n := 4096) (k := 256) (m := 47) (val_main_v67 (F := Ideal) x0 x1 x2 x3 x4 x5 x6 x7 x8 x9 x10) x11 x12 := by
  funext i
  -- split the index into its row and its column
  obtain ⟨p, q, rfl⟩ : ∃ (p : Fin 4096) (q : Fin 47), i = ix2 p q := ⟨i 0, i 1, eq_ix2 i⟩
  -- the operand indices of the product, and the bias index, are the coordinates themselves
  have el : ∀ k : Fin 256, lidx_main_v68 (ix2 p q) k = ix2 p k := fun k =>
    funext fun a => Fin.ext (by match a with | ⟨0, _⟩ => rfl | ⟨1, _⟩ => rfl)
  have er : ∀ k : Fin 256, ridx_main_v68 (ix2 p q) k = ix2 k q := fun k =>
    funext fun a => Fin.ext (by match a with | ⟨0, _⟩ => rfl | ⟨1, _⟩ => rfl)
  have eb : idx_main_v69 (idx_main_v70 (ix2 p q)) = ix1 q :=
    funext fun a => Fin.ext (by match a with | ⟨0, _⟩ => rfl)
  rw [Cert.Layers.affine_apply, val_main_v71_apply, val_main_v68_apply, val_main_v70_apply, val_main_v69_apply, eb]
  simp only [el, er]
  rfl

end Cert.ReferenceIdeal.RefLayer3

end
-- ==== Proof.Result.lean ====
/-
  The kernel's result, layer by layer.

  At the first region's exit its result array holds the first dense layer of the aggregated input features; the second
  stretch aggregates that, the second region applies the second dense layer, the third stretch aggregates again and the
  third region applies the last dense layer. At each step the kernel's array is identified with the reference's stage of
  the same launch arguments: a region's array by the layer's function on both sides, a stretch's by the shared
  aggregation. So the result buffer ends at the reference's last stage, as a function of the thirteen arguments.
-/
import proofs.«150257_j18141941859028_1_alg».proof.Proof.Stretch
import proofs.«150257_j18141941859028_1_alg».proof.Proof.Region0
import proofs.«150257_j18141941859028_1_alg».proof.Proof.Region1
import proofs.«150257_j18141941859028_1_alg».proof.Proof.Region2
import proofs.«150257_j18141941859028_1_alg».proof.Proof.RefLayer1
import proofs.«150257_j18141941859028_1_alg».proof.Proof.RefLayer2
import proofs.«150257_j18141941859028_1_alg».proof.Proof.RefLayer3

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first region: the first layer of the aggregated features. -/
theorem after_layer1 (c : Dev nD) :
    W2 m ρ c (Proc.devRef .tc main_v19)
      = Cert.ReferenceIdeal.Read.val_main_v23 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  have e : W2 m ρ c (Proc.devRef .tc main_v19) = (dat0 (F := Ideal) (V1 m ρ) c).arrAt 3 cfg0.N := W2_arr m ρ c 3
  have e7 : V1 m ρ c main_arg7 = (m ((c : Thread nD τ).loc main_arg7)) := Stretch.W1_arg7 m ρ c
  have e8 : V1 m ρ c main_arg8 = (m ((c : Thread nD τ).loc main_arg8)) := Stretch.W1_arg8 m ρ c
  rw [e, Region0.array (V1 m ρ) c, Stretch.entry0 m ρ c, e7, e8]
  exact (Cert.ReferenceIdeal.RefLayer1.layer_eq _ _ _ _ _).symm

/-- After the second region: the second layer of the aggregated first-layer activations. -/
theorem after_layer2 (c : Dev nD) :
    W4 m ρ c (Proc.devRef .tc main_v39)
      = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) := by
  have e : W4 m ρ c (Proc.devRef .tc main_v39) = (dat1 (F := Ideal) (V3 m ρ) c).arrAt 3 cfg1.N := W4_arr m ρ c 3
  have e9 : V3 m ρ c main_arg9 = (m ((c : Thread nD τ).loc main_arg9)) := Stretch.W3_arg9 m ρ c
  have e10 : V3 m ρ c main_arg10 = (m ((c : Thread nD τ).loc main_arg10)) := Stretch.W3_arg10 m ρ c
  rw [e, Region1.array (V3 m ρ) c, Stretch.entry1 m ρ c _ _ _ _ _ (after_layer1 m ρ c), e9, e10]
  exact (Cert.ReferenceIdeal.RefLayer2.layer_eq _ _ _ _ _ _ _ _ _).symm

/-- After the third region: the last layer of the aggregated second-layer activations, which is the reference's
    result as a function of the thirteen arguments. -/
theorem result (c : Dev nD) :
    W6 m ρ c (Proc.devRef .tc main_v59)
      = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e : W6 m ρ c (Proc.devRef .tc main_v59) = (dat2 (F := Ideal) (V5 m ρ) c).arrAt 3 cfg2.N := W6_arr m ρ c 3
  have e11 : V5 m ρ c main_arg11 = (m ((c : Thread nD τ).loc main_arg11)) := Stretch.W5_arg11 m ρ c
  have e12 : V5 m ρ c main_arg12 = (m ((c : Thread nD τ).loc main_arg12)) := Stretch.W5_arg12 m ρ c
  rw [e, Region2.array (V5 m ρ) c, Stretch.entry2 m ρ c _ _ _ _ _ _ _ _ _ (after_layer2 m ρ c), e11, e12]
  exact (Cert.ReferenceIdeal.RefLayer3.layer_eq _ _ _ _ _ _ _ _ _ _ _ _ _).symm

end Cert.KernelIdeal.Result

end
-- ==== Proof.lean ====
/-
  A three-layer graph network: each layer averages, for every destination node, the feature rows of the source nodes of
  its incoming edges (a gather along the edge list, a sum per destination, a division by the number of edges clamped below
  at one), and then applies a dense layer `x · W + b`: clipped below at zero in the first layer, set beside its clipped copy
  in the second, plain in the third.

  The kernel computes the averages by the same host operations as the reference and each dense layer in a pipelined region
  over blocks of rows, casting the activations and weights to a shorter float format before the matrix product; the
  reference multiplies whole matrices on the host. Over the extended reals a change of float format is the identity, and a
  matrix product accumulated from zero and the host's contraction are one sum, so block by block each region writes the
  rows of the same layer function the reference applies, and the shared averaging is carried as one unread function from
  layer to layer. Hence both programs end with the same array, the reference's last stage of the thirteen arguments.

  The frames of the two kernel programs are the generated ones; the reference's is its generated run with the result
  dropped; the idealization rewrote nothing, so there is nothing to preserve.
-/
import proofs.«150257_j18141941859028_1_alg».proof.Defs
import proofs.«150257_j18141941859028_1_alg».proof.Proof.Gen.Kernel
import proofs.«150257_j18141941859028_1_alg».proof.Proof.Gen.Kernel.Frame
import proofs.«150257_j18141941859028_1_alg».proof.Proof.Gen.KernelIdeal
import proofs.«150257_j18141941859028_1_alg».proof.Proof.Gen.KernelIdeal.Frame
import proofs.«150257_j18141941859028_1_alg».proof.Proof.Gen.ReferenceIdeal
import proofs.«150257_j18141941859028_1_alg».proof.Proof.Gen.Pre_finite_inputs
import proofs.«150257_j18141941859028_1_alg».proof.Proof.Gen.ReferenceIdeal.Run
import proofs.«150257_j18141941859028_1_alg».proof.Proof.Gen.ReferenceIdeal.Read
import proofs.«150257_j18141941859028_1_alg».proof.Proof.RunAll
import proofs.«150257_j18141941859028_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments: the kernel by its three regions and
    stretches read layer by layer, the reference by its own run. -/
theorem algebraic : Cert.algebraic_KernelIdeal_ReferenceIdeal := by
  intro m ρ m' ρ' _ hagree
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Result.result m ρ c), (h c).2⟩)
      (Cert.KernelIdeal.RunAll.run (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12⟩ := hagree c
    rw [Cert.ReferenceIdeal.Read.val_main_v71_eq, g0, g1, g2, g3, g4, g5, g6, g7, g8, g9, g10, g11, g12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
